-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x128 .f32) (main_arg8 : FVec F S64 .f32) (main_arg9 : FVec F S64x128 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S64x128 .f32) (main_arg8 : FVec F S64 .f32) (main_arg9 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : FVec F S64x128 .f32) (main_arg8 : FVec F S64 .f32) (main_arg9 : FVec F S64x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S16384x128 : Shape := ⟨2, ![16384, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S1x64 : Shape := ⟨2, ![1, 64]⟩
abbrev S16384x64 : Shape := ⟨2, ![16384, 64]⟩
abbrev S8192x128 : Shape := ⟨2, ![8192, 128]⟩
abbrev S8192x64 : Shape := ⟨2, ![8192, 64]⟩

abbrev nBuf : Space → Nat
  | .hbm => 14
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S64x128, .f32⟩
  | .hbm, ⟨8, _⟩ => ⟨S64, .f32⟩
  | .hbm, ⟨9, _⟩ => ⟨S64x128, .f32⟩
  | .hbm, ⟨10, _⟩ => ⟨S1x128, .f32⟩
  | .hbm, ⟨11, _⟩ => ⟨S1x128, .f32⟩
  | .hbm, ⟨12, _⟩ => ⟨S1x64, .f32⟩
  | .hbm, ⟨13, _⟩ => ⟨S16384x64, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S64x128, .f32⟩
  | .local _ .vmem, ⟨9, _⟩ => ⟨S1x64, .f32⟩
  | .local _ .vmem, ⟨10, _⟩ => ⟨S64x128, .f32⟩
  | .local _ .vmem, ⟨11, _⟩ => ⟨S8192x64, .f32⟩
  | .local _ .vmem, ⟨12, _⟩ => ⟨S8192x64, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8192x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S128_S1x128 : S128.ShapeCasts S1x128
  shapeCasts_S64_S1x64 : S64.ShapeCasts S1x64
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  dot_S8192x128_S128x128_S8192x128_1_1_0_0_n_n_wf : DotDims.WF S8192x128 S128x128 S8192x128 [1] [1] [0] [0] [] []
  dot_S8192x128_S64x128_S8192x64_1_1_0_0_n_n_wf : DotDims.WF S8192x128 S64x128 S8192x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S16384x128.size a
  hwx0_0 : ∀ i : grid0.Coords, EltTy.bits .f32 = 32 ∨ (Rect.block (s := S16384x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x64.size a ≤ S16384x64.size a
  hwx0_10 : ∀ i : grid0.Coords, EltTy.bits .f32 = 32 ∨ (Rect.block (s := S16384x64) S8192x64.size (cc0_transform_10 i) (hinb0_10 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def dot_S8192x128_S64x128_S8192x64_1_1_0_0_n_n : DotDims S8192x128 S64x128 S8192x64 where
  lhsContracting := [1]
  rhsContracting := [1]
  lhsNonContracting := [0]
  rhsNonContracting := [0]
  lhsBatch := []
  rhsBatch := []
  wf := dot_S8192x128_S64x128_S8192x64_1_1_0_0_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v2) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S8192x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S16384x448 : Shape := ⟨2, ![16384, 448]⟩
abbrev S128x1 : Shape := ⟨2, ![128, 1]⟩
abbrev S1 : Shape := ⟨1, ![1]⟩
abbrev S1x1 : Shape := ⟨2, ![1, 1]⟩
abbrev S1x128 : Shape := ⟨2, ![1, 128]⟩
abbrev S128x64 : Shape := ⟨2, ![128, 64]⟩
abbrev S16384x64 : Shape := ⟨2, ![16384, 64]⟩
abbrev S1x64 : Shape := ⟨2, ![1, 64]⟩
abbrev S64x1 : Shape := ⟨2, ![64, 1]⟩

abbrev nBuf : Space → Nat
  | .hbm => 180
  | .vmem => 0
  | .smem => 0
  | _ => 0

abbrev hbmTy0_0 (i : Nat) : BufTy := match i % 128 with
  | 0 => ⟨S16384x128, .f32⟩
  | 1 => ⟨S128x128, .f32⟩
  | 2 => ⟨S128, .f32⟩
  | 3 => ⟨S128x128, .f32⟩
  | 4 => ⟨S128x128, .f32⟩
  | 5 => ⟨S128, .f32⟩
  | 6 => ⟨S128x128, .f32⟩
  | 7 => ⟨S64x128, .f32⟩
  | 8 => ⟨S64, .f32⟩
  | 9 => ⟨S64x128, .f32⟩
  | 10 => ⟨S_, .f32⟩
  | 11 => ⟨S16384x448, .f32⟩
  | 12 => ⟨S128, .i32⟩
  | 13 => ⟨S128, .i32⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i32⟩
  | 21 => ⟨S64, .i32⟩
  | 22 => ⟨S_, .i32⟩
  | 23 => ⟨S64, .i32⟩
  | 24 => ⟨S64, .i32⟩
  | 25 => ⟨S_, .i32⟩
  | 26 => ⟨S128, .i32⟩
  | 27 => ⟨S128, .i1⟩
  | 28 => ⟨S_, .i32⟩
  | 29 => ⟨S128, .i32⟩
  | 30 => ⟨S128, .i32⟩
  | 31 => ⟨S128, .i32⟩
  | 32 => ⟨S128x1, .i32⟩
  | 33 => ⟨S16384x448, .f32⟩
  | 34 => ⟨S_, .i32⟩
  | 35 => ⟨S128, .i32⟩
  | 36 => ⟨S128, .i1⟩
  | 37 => ⟨S_, .i32⟩
  | 38 => ⟨S128, .i32⟩
  | 39 => ⟨S128, .i32⟩
  | 40 => ⟨S128, .i32⟩
  | 41 => ⟨S128x1, .i32⟩
  | 42 => ⟨S1, .i32⟩
  | 43 => ⟨S_, .i32⟩
  | 44 => ⟨S128x1, .i32⟩
  | 45 => ⟨S128x1, .i1⟩
  | 46 => ⟨S1x1, .i32⟩
  | 47 => ⟨S128x1, .i32⟩
  | 48 => ⟨S128x1, .i1⟩
  | 49 => ⟨S128x1, .i1⟩
  | 50 => ⟨S_, .i1⟩
  | 51 => ⟨S128, .i1⟩
  | 52 => ⟨S16384x128, .f32⟩
  | 53 => ⟨S16384x128, .i1⟩
  | 54 => ⟨S_, .f32⟩
  | 55 => ⟨S16384x128, .f32⟩
  | 56 => ⟨S16384x128, .f32⟩
  | 57 => ⟨S128x128, .f32⟩
  | 58 => ⟨S128x128, .f32⟩
  | 59 => ⟨S16384x128, .f32⟩
  | 60 => ⟨S1x128, .f32⟩
  | 61 => ⟨S16384x128, .f32⟩
  | 62 => ⟨S16384x128, .f32⟩
  | 63 => ⟨S_, .f32⟩
  | 64 => ⟨S16384x128, .f32⟩
  | 65 => ⟨S16384x128, .f32⟩
  | 66 => ⟨S_, .i32⟩
  | 67 => ⟨S128, .i32⟩
  | 68 => ⟨S128, .i1⟩
  | 69 => ⟨S_, .i32⟩
  | 70 => ⟨S128, .i32⟩
  | 71 => ⟨S128, .i32⟩
  | 72 => ⟨S128, .i32⟩
  | 73 => ⟨S128x1, .i32⟩
  | 74 => ⟨S16384x448, .f32⟩
  | 75 => ⟨S_, .i32⟩
  | 76 => ⟨S128, .i32⟩
  | 77 => ⟨S128, .i1⟩
  | 78 => ⟨S_, .i32⟩
  | 79 => ⟨S128, .i32⟩
  | 80 => ⟨S128, .i32⟩
  | 81 => ⟨S128, .i32⟩
  | 82 => ⟨S128x1, .i32⟩
  | 83 => ⟨S1, .i32⟩
  | 84 => ⟨S_, .i32⟩
  | 85 => ⟨S128x1, .i32⟩
  | 86 => ⟨S128x1, .i1⟩
  | 87 => ⟨S1x1, .i32⟩
  | 88 => ⟨S128x1, .i32⟩
  | 89 => ⟨S128x1, .i1⟩
  | 90 => ⟨S128x1, .i1⟩
  | 91 => ⟨S_, .i1⟩
  | 92 => ⟨S128, .i1⟩
  | 93 => ⟨S16384x128, .f32⟩
  | 94 => ⟨S16384x128, .i1⟩
  | 95 => ⟨S_, .f32⟩
  | 96 => ⟨S16384x128, .f32⟩
  | 97 => ⟨S16384x128, .f32⟩
  | 98 => ⟨S128x128, .f32⟩
  | 99 => ⟨S128x128, .f32⟩
  | 100 => ⟨S16384x128, .f32⟩
  | 101 => ⟨S1x128, .f32⟩
  | 102 => ⟨S16384x128, .f32⟩
  | 103 => ⟨S16384x128, .f32⟩
  | 104 => ⟨S_, .f32⟩
  | 105 => ⟨S16384x128, .f32⟩
  | 106 => ⟨S16384x128, .f32⟩
  | 107 => ⟨S_, .i32⟩
  | 108 => ⟨S128, .i32⟩
  | 109 => ⟨S128, .i1⟩
  | 110 => ⟨S_, .i32⟩
  | 111 => ⟨S128, .i32⟩
  | 112 => ⟨S128, .i32⟩
  | 113 => ⟨S128, .i32⟩
  | 114 => ⟨S128x1, .i32⟩
  | 115 => ⟨S16384x448, .f32⟩
  | 116 => ⟨S_, .i32⟩
  | 117 => ⟨S128, .i32⟩
  | 118 => ⟨S128, .i1⟩
  | 119 => ⟨S_, .i32⟩
  | 120 => ⟨S128, .i32⟩
  | 121 => ⟨S128, .i32⟩
  | 122 => ⟨S128, .i32⟩
  | 123 => ⟨S128x1, .i32⟩
  | 124 => ⟨S1, .i32⟩
  | 125 => ⟨S_, .i32⟩
  | 126 => ⟨S128x1, .i32⟩
  | 127 => ⟨S128x1, .i1⟩
  | _ => ⟨S16384x128, .f32⟩

abbrev hbmTy0_1 (i : Nat) : BufTy := match i % 128 with
  | 0 => ⟨S1x1, .i32⟩
  | 1 => ⟨S128x1, .i32⟩
  | 2 => ⟨S128x1, .i1⟩
  | 3 => ⟨S128x1, .i1⟩
  | 4 => ⟨S_, .i1⟩
  | 5 => ⟨S128, .i1⟩
  | 6 => ⟨S16384x128, .f32⟩
  | 7 => ⟨S16384x128, .i1⟩
  | 8 => ⟨S_, .f32⟩
  | 9 => ⟨S16384x128, .f32⟩
  | 10 => ⟨S16384x128, .f32⟩
  | 11 => ⟨S64x128, .f32⟩
  | 12 => ⟨S128x64, .f32⟩
  | 13 => ⟨S16384x64, .f32⟩
  | 14 => ⟨S1x64, .f32⟩
  | 15 => ⟨S16384x64, .f32⟩
  | 16 => ⟨S16384x64, .f32⟩
  | 17 => ⟨S_, .f32⟩
  | 18 => ⟨S16384x64, .f32⟩
  | 19 => ⟨S16384x64, .f32⟩
  | 20 => ⟨S_, .i32⟩
  | 21 => ⟨S64, .i32⟩
  | 22 => ⟨S64, .i1⟩
  | 23 => ⟨S_, .i32⟩
  | 24 => ⟨S64, .i32⟩
  | 25 => ⟨S64, .i32⟩
  | 26 => ⟨S64, .i32⟩
  | 27 => ⟨S64x1, .i32⟩
  | 28 => ⟨S16384x448, .f32⟩
  | 29 => ⟨S_, .i32⟩
  | 30 => ⟨S64, .i32⟩
  | 31 => ⟨S64, .i1⟩
  | 32 => ⟨S_, .i32⟩
  | 33 => ⟨S64, .i32⟩
  | 34 => ⟨S64, .i32⟩
  | 35 => ⟨S64, .i32⟩
  | 36 => ⟨S64x1, .i32⟩
  | 37 => ⟨S1, .i32⟩
  | 38 => ⟨S_, .i32⟩
  | 39 => ⟨S64x1, .i32⟩
  | 40 => ⟨S64x1, .i1⟩
  | 41 => ⟨S1x1, .i32⟩
  | 42 => ⟨S64x1, .i32⟩
  | 43 => ⟨S64x1, .i1⟩
  | 44 => ⟨S64x1, .i1⟩
  | 45 => ⟨S_, .i1⟩
  | 46 => ⟨S64, .i1⟩
  | 47 => ⟨S16384x64, .f32⟩
  | 48 => ⟨S16384x64, .i1⟩
  | 49 => ⟨S_, .f32⟩
  | 50 => ⟨S16384x64, .f32⟩
  | 51 => ⟨S16384x64, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_call1_cst : Ref sig .tc := ⟨.hbm, 63, rfl⟩
abbrev main_call1_v0 : Ref sig .tc := ⟨.hbm, 64, rfl⟩
abbrev main_v25 : Ref sig .tc := ⟨.hbm, 65, rfl⟩
abbrev main_c_4 : Ref sig .tc := ⟨.hbm, 66, rfl⟩
abbrev main_v26 : Ref sig .tc := ⟨.hbm, 67, rfl⟩
abbrev main_v27 : Ref sig .tc := ⟨.hbm, 68, rfl⟩
abbrev main_c_5 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_call3_cst : Ref sig .tc := ⟨.hbm, 104, rfl⟩
abbrev main_call3_v0 : Ref sig .tc := ⟨.hbm, 105, rfl⟩
abbrev main_v40 : Ref sig .tc := ⟨.hbm, 106, rfl⟩
abbrev main_c_6 : Ref sig .tc := ⟨.hbm, 107, rfl⟩
abbrev main_v41 : Ref sig .tc := ⟨.hbm, 108, rfl⟩
abbrev main_v42 : Ref sig .tc := ⟨.hbm, 109, rfl⟩
abbrev main_c_7 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_call5_cst : Ref sig .tc := ⟨.hbm, 145, rfl⟩
abbrev main_call5_v0 : Ref sig .tc := ⟨.hbm, 146, rfl⟩
abbrev main_v55 : Ref sig .tc := ⟨.hbm, 147, rfl⟩
abbrev main_c_8 : Ref sig .tc := ⟨.hbm, 148, rfl⟩
abbrev main_v56 : Ref sig .tc := ⟨.hbm, 149, rfl⟩
abbrev main_v57 : Ref sig .tc := ⟨.hbm, 150, rfl⟩
abbrev main_c_9 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_call6_c : Ref sig .tc := ⟨.hbm, 157, rfl⟩
abbrev main_call6_v0 : Ref sig .tc := ⟨.hbm, 158, rfl⟩
abbrev main_call6_v1 : Ref sig .tc := ⟨.hbm, 159, rfl⟩
abbrev main_call6_c_0 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_c_1 : Ref sig .tc := ⟨.hbm, 165, rfl⟩
abbrev main_call6_c_2 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_c_3 : Ref sig .tc := ⟨.hbm, 173, rfl⟩
abbrev main_call6_v12 : Ref sig .tc := ⟨.hbm, 174, rfl⟩
abbrev main_call6_v13 : Ref sig .tc := ⟨.hbm, 175, rfl⟩
abbrev main_call6_v14 : Ref sig .tc := ⟨.hbm, 176, rfl⟩
abbrev main_call6_cst : Ref sig .tc := ⟨.hbm, 177, rfl⟩
abbrev main_call6_v15 : Ref sig .tc := ⟨.hbm, 178, rfl⟩
abbrev main_v63 : Ref sig .tc := ⟨.hbm, 179, rfl⟩

abbrev nD : Nat := 1
abbrev τ : Topo := Topo.v7x

variable {F : FTy → Type} [FloatOps F]

class Facts₀ : Prop where
  bcast_S_S16384x448 : S_.BroadcastsInDim S16384x448 (![] : Fin 0 → Fin S16384x448.rank)
  bcast_S_S128 : S_.BroadcastsInDim S128 (![] : Fin 0 → Fin S128.rank)
  bcast_S_S64 : S_.BroadcastsInDim S64 (![] : Fin 0 → Fin S64.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S128_S16384x128_1 : S128.BroadcastsInDim S16384x128 (![1] : Fin 1 → Fin S16384x128.rank)
  bcast_S_S16384x128 : S_.BroadcastsInDim S16384x128 (![] : Fin 0 → Fin S16384x128.rank)
  transposes_S128x128_S128x128_1_0 : S128x128.Transposes [1, 0] S128x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S64_S64x1_0 : S64.BroadcastsInDim S64x1 (![0] : Fin 1 → Fin S64x1.rank)
  bcast_S_S64x1 : S_.BroadcastsInDim S64x1 (![] : Fin 0 → Fin S64x1.rank)
  bcast_S1x1_S64x1_0_1 : S1x1.BroadcastsInDim S64x1 (![0, 1] : Fin 2 → Fin S64x1.rank)
  reducesTo_S64x1_S64_d1 : S64x1.ReducesTo [1] S64
  bcast_S64_S16384x64_1 : S64.BroadcastsInDim S16384x64 (![1] : Fin 1 → Fin S16384x64.rank)
  scatter_S16384x448_S128x1_S16384x128_0_1_1_1_wf : ScatterDims.WF S16384x448 S128x1 S16384x128 [0] [1] [1] 1
  gather_S16384x448_S128x1_S16384x128_0_1_n_n_1_1_163841_wf : GatherDims.WF S16384x448 S128x1 S16384x128 [0] [1] [] [1] [] 1 ![16384, 1]
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  scatter_S16384x448_S64x1_S16384x64_0_1_1_1_wf : ScatterDims.WF S16384x448 S64x1 S16384x64 [0] [1] [1] 1
  gather_S16384x448_S64x1_S16384x64_0_1_n_n_1_1_163841_wf : GatherDims.WF S16384x448 S64x1 S16384x64 [0] [1] [] [1] [] 1 ![16384, 1]

variable [Facts₀]

def scatter_S16384x448_S128x1_S16384x128_0_1_1_1 : ScatterDims S16384x448 S128x1 S16384x128 where
  updateWindowDims := [0]
  insertedWindowDims := [1]
  scatterDimsToOperandDims := [1]
  indexVectorDim := 1
  wf := scatter_S16384x448_S128x1_S16384x128_0_1_1_1_wf
def gather_S16384x448_S128x1_S16384x128_0_1_n_n_1_1_163841 : GatherDims S16384x448 S128x1 S16384x128 where
  offsetDims := [0]
  collapsedSliceDims := [1]
  operandBatchingDims := []
  startIndicesBatchingDims := []
  startIndexMap := [1]
  indexVectorDim := 1
  sliceSizes := ![16384, 1]
  wf := gather_S16384x448_S128x1_S16384x128_0_1_n_n_1_1_163841_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def scatter_S16384x448_S64x1_S16384x64_0_1_1_1 : ScatterDims S16384x448 S64x1 S16384x64 where
  updateWindowDims := [0]
  insertedWindowDims := [1]
  scatterDimsToOperandDims := [1]
  indexVectorDim := 1
  wf := scatter_S16384x448_S64x1_S16384x64_0_1_1_1_wf
def gather_S16384x448_S64x1_S16384x64_0_1_n_n_1_1_163841 : GatherDims S16384x448 S64x1 S16384x64 where
  offsetDims := [0]
  collapsedSliceDims := [1]
  operandBatchingDims := []
  startIndicesBatchingDims := []
  startIndexMap := [1]
  indexVectorDim := 1
  sliceSizes := ![16384, 1]
  wf := gather_S16384x448_S64x1_S16384x64_0_1_n_n_1_1_163841_wf

class Facts : Prop extends Facts₀ where

variable [Facts]
-- ==== Proof.Spec.lean ====
/-
  The function both programs compute: three masked linear layers, each followed by the rectifier.

  A layer takes an array `x` with rows `i` and a weight array `W` whose rows `j` are the output units; the weights are
  first multiplied entry by entry by a mask `M` of the same extents. Output entry (i, j) is the sum over the input
  position q of x (i, q) · (W (j, q) · M (j, q)), plus the unit's bias b (j), and the rectifier keeps the larger of that
  number and 0. Everything is an extended real and every operation is the exact one.

  Arrays are written here as functions of a row and a column, and a bias as a function of the unit, so that the
  statement does not depend on how an array's index is spelt. An entry of a layer's output depends on row `i` of its input
  only: re-reading the input's rows through any map of row numbers re-reads the output's rows through the same map,
  by unfolding the definition. That is how a block of rows of the whole array is the same function of the block's rows.
-/
import Idealize.ShloMosaic.PureOps.Ideal
import Idealize.ShloMosaic.Lib.ValueIdx

noncomputable section

open scoped BigOperators

namespace Cert.Mlp

/-- One layer: row `i` of `x` against row `j` of the masked weights, plus the bias of unit `j`, rectified at 0. -/
def layer {R K N : Nat} (x : Fin R → Fin K → EReal) (W M : Fin N → Fin K → EReal) (b : Fin N → EReal) :
    Fin R → Fin N → EReal :=
  fun i j => max ((∑ q : Fin K, x i q * (W j q * M j q)) + b j) 0

/-- The three layers in sequence: 128 inputs, 128 and 128 hidden units, 64 outputs. -/
def net {R : Nat} (x : Fin R → Fin 128 → EReal)
    (W1 M1 : Fin 128 → Fin 128 → EReal) (b1 : Fin 128 → EReal)
    (W2 M2 : Fin 128 → Fin 128 → EReal) (b2 : Fin 128 → EReal)
    (W3 M3 : Fin 64 → Fin 128 → EReal) (b3 : Fin 64 → EReal) : Fin R → Fin 64 → EReal :=
  layer (layer (layer x W1 M1 b1) W2 M2 b2) W3 M3 b3

/-- A layer acts on each row by itself: rows re-read through `f` give the output's rows re-read through `f`. -/
theorem layer_rows {R R' K N : Nat} (f : Fin R' → Fin R) (x : Fin R → Fin K → EReal) (W M : Fin N → Fin K → EReal)
    (b : Fin N → EReal) : layer (fun p => x (f p)) W M b = fun p => layer x W M b (f p) := rfl

/-- So do the three layers in sequence. -/
theorem net_rows {R R' : Nat} (f : Fin R' → Fin R) (x : Fin R → Fin 128 → EReal)
    (W1 M1 : Fin 128 → Fin 128 → EReal) (b1 : Fin 128 → EReal)
    (W2 M2 : Fin 128 → Fin 128 → EReal) (b2 : Fin 128 → EReal)
    (W3 M3 : Fin 64 → Fin 128 → EReal) (b3 : Fin 64 → EReal) :
    net (fun p => x (f p)) W1 M1 b1 W2 M2 b2 W3 M3 b3 = fun p => net x W1 M1 b1 W2 M2 b2 W3 M3 b3 (f p) := rfl

/-! ## The result array of the two programs

The same function over the programs' ten argument arrays, in the order the programs take them: the input rows, then
for each layer its weights, its bias and its mask. An array's entry is read at the index built from its row and column. -/

open Idealize.ShloMosaic Idealize.ShloMosaic.ValueIdx in
/-- The [16384 × 64] result: entry (i, j) is the three layers' output for input row `i` at output unit `j`. -/
def out (x : (⟨2, ![16384, 128]⟩ : Shape).Idx → EReal)
    (W1 : (⟨2, ![128, 128]⟩ : Shape).Idx → EReal) (b1 : (⟨1, ![128]⟩ : Shape).Idx → EReal) (M1 : (⟨2, ![128, 128]⟩ : Shape).Idx → EReal)
    (W2 : (⟨2, ![128, 128]⟩ : Shape).Idx → EReal) (b2 : (⟨1, ![128]⟩ : Shape).Idx → EReal) (M2 : (⟨2, ![128, 128]⟩ : Shape).Idx → EReal)
    (W3 : (⟨2, ![64, 128]⟩ : Shape).Idx → EReal) (b3 : (⟨1, ![64]⟩ : Shape).Idx → EReal) (M3 : (⟨2, ![64, 128]⟩ : Shape).Idx → EReal) :
    (⟨2, ![16384, 64]⟩ : Shape).Idx → EReal :=
  fun e => net (fun i q => x (ix2 i q))
    (fun j q => W1 (ix2 j q)) (fun j q => M1 (ix2 j q)) (fun j => b1 (ix1 j))
    (fun j q => W2 (ix2 j q)) (fun j q => M2 (ix2 j q)) (fun j => b2 (ix1 j))
    (fun j q => W3 (ix2 j q)) (fun j q => M3 (ix2 j q)) (fun j => b3 (ix1 j)) (e 0) (e 1)

end Cert.Mlp

end
-- ==== Proof.LibDotRows.lean ====
/-
  The matrix product of two arrays that are both contracted along their second axis, read at one entry.

  The left factor A is M × K and the right factor B is N × K; the dimension numbers say that axis 1 of A is summed
  against axis 1 of B, that axis 0 of A gives the result's rows and axis 0 of B the result's columns, and that there is
  no batch axis. So result entry (i, j) pairs ROW i of A with ROW j of B: at contraction position k the left factor is
  read at (i, c) and the right factor at (j, c), where c is the single coordinate of k (the set of contraction positions
  has one axis, of extent K). Positions and coordinates correspond one to one, so the sum over positions is the sum
  over c, and over the extended reals the entry is

      ∑ q : Fin K, A (i, q) · B (j, q).

  No law of arithmetic is used: the summands are re-read at named indices and the index set of the sum is renamed. The
  statement is for the product accumulated into an all-zero array, whose zero adds nothing; the precision annotation
  plays no part at the ideal values. The dimension record takes its well-formedness as a parameter, so that any record
  with these six lists over these three shapes is this one.
-/
import Idealize.ShloMosaic.PureOps.Ideal.Laws
import Idealize.ShloMosaic.Lib.ValueIdx

noncomputable section

open scoped BigOperators

namespace Cert.LibDotRows

open Idealize.ShloMosaic Idealize.ShloMosaic.ValueIdx

/-- The conditions under which "contract axis 1 with axis 1, rows from the left factor, columns from the right factor,
    no batch axis" is a legitimate description of an M × K by N × K product with an M × N result. -/
abbrev Wf (M K N : Nat) : Prop :=
  DotDims.WF (⟨2, ![M, K]⟩ : Shape) (⟨2, ![N, K]⟩ : Shape) (⟨2, ![M, N]⟩ : Shape) [1] [1] [0] [0] [] []

/-- The dimension numbers of the rows-against-rows product, given that they are well formed. -/
abbrev dims (M K N : Nat) (wf : Wf M K N) : DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : Wf M K N)

/-! ## The one coordinate of a contraction position -/

/-- The contraction positions form a single axis of extent `K` (the extent of the left factor's axis 1); `pos wf k` is
    the coordinate of position `k` on it, as a number below `K`. -/
def pos (k : (dims M K N wf).contr.Idx) : Fin K := contrEquiv1 (dims M K N wf) K rfl rfl k

/-- A sum over the coordinates, read at the coordinate of each position, is the sum over the positions: the two sets
    correspond one to one. -/
theorem sum_pos {β : Type*} [AddCommMonoid β] (f : Fin K → β) :
    ∑ k : (dims M K N wf).contr.Idx, f (pos wf k) = ∑ q : Fin K, f q :=
  Equiv.sum_comp (contrEquiv1 (dims M K N wf) K rfl rfl) f

/-- The coordinate as a number is the position's entry on axis 0 of the contraction set. -/
theorem pos_val (k : (dims M K N wf).contr.Idx) : (pos wf k).val = (k ⟨0, Nat.one_pos⟩).val := rfl

/-! ## The coordinates the two factors are read at -/

/-- The left factor's row is the result's row: its axis 0 is free and comes first among the result's axes. -/
theorem left_row (e : (⟨2, ![M, N]⟩ : Shape).Idx) (k : (dims M K N wf).contr.Idx) :
    ((dims M K N wf).lhsIdx e k 0).val = (e 0).val := rfl

/-- The left factor's column is the contraction coordinate: its axis 1 is the one contracted axis. -/
theorem left_col (e : (⟨2, ![M, N]⟩ : Shape).Idx) (k : (dims M K N wf).contr.Idx) :
    ((dims M K N wf).lhsIdx e k 1).val = (pos wf k).val :=
  (dims M K N wf).lhsIdx_val_of_single (cl := 1) rfl e k

/-- The right factor's row is the result's column: its axis 0 is free and comes second among the result's axes, after
    the left factor's free axis. -/
theorem right_row (e : (⟨2, ![M, N]⟩ : Shape).Idx) (k : (dims M K N wf).contr.Idx) :
    ((dims M K N wf).rhsIdx e k 0).val = (e 1).val := rfl

/-- The right factor's column is the contraction coordinate: its axis 1 is the one contracted axis. -/
theorem right_col (e : (⟨2, ![M, N]⟩ : Shape).Idx) (k : (dims M K N wf).contr.Idx) :
    ((dims M K N wf).rhsIdx e k 1).val = (pos wf k).val :=
  (dims M K N wf).rhsIdx_val_of_single (cr := 1) rfl e k

/-! ## The two operand indices at entry (i, j) -/

/-- At result entry (i, j) and contraction position `k` the left factor is read at (i, `pos wf k`). -/
theorem left_at (i : Fin M) (j : Fin N) (k : (dims M K N wf).contr.Idx) :
    (dims M K N wf).lhsIdx (ix2 i j) k = ix2 i (pos wf k) := by
  funext a
  apply Fin.ext
  match a with
  | ⟨0, _⟩ => exact left_row wf (ix2 i j) k
  | ⟨1, _⟩ => exact left_col wf (ix2 i j) k

/-- At result entry (i, j) and contraction position `k` the right factor is read at (j, `pos wf k`): ROW j of the right
    factor, not its column. -/
theorem right_at (i : Fin M) (j : Fin N) (k : (dims M K N wf).contr.Idx) :
    (dims M K N wf).rhsIdx (ix2 i j) k = ix2 j (pos wf k) := by
  funext a
  apply Fin.ext
  match a with
  | ⟨0, _⟩ => exact right_row wf (ix2 i j) k
  | ⟨1, _⟩ => exact right_col wf (ix2 i j) k

/-- The sum over contraction positions of the factors' products at entry (i, j) is the sum over q of
    A (i, q) · B (j, q). -/
theorem sum_products {φ₁ φ₂ : FTy} (A : FVec Ideal ⟨2, ![M, K]⟩ φ₁) (B : FVec Ideal ⟨2, ![N, K]⟩ φ₂)
    (i : Fin M) (j : Fin N) :
    ∑ k : (dims M K N wf).contr.Idx,
        A ((dims M K N wf).lhsIdx (ix2 i j) k) * B ((dims M K N wf).rhsIdx (ix2 i j) k)
      = ∑ q : Fin K, A (ix2 i q) * B (ix2 j q) := by
  rw [← sum_pos wf fun q => A (ix2 i q) * B (ix2 j q)]
  exact Finset.sum_congr rfl fun k _ => by rw [left_at, right_at]

/-! ## The product at an entry -/

/-- The M × K by N × K product, both factors contracted along axis 1, accumulated into the all-zero M × N array, at the
    ideal values and at entry (i, j): the sum over q of A (i, q) · B (j, q). -/
theorem matmul_zero_rows (M K N : Nat) (wf : Wf M K N) {φ₁ φ₂ : FTy} (prec : Option ContractPrecision)
    (A : FVec Ideal ⟨2, ![M, K]⟩ φ₁) (B : FVec Ideal ⟨2, ![N, K]⟩ φ₂) (i : Fin M) (j : Fin N) :
    FloatOps.matmul (dims M K N wf) prec A B (constant ⟨2, ![M, N]⟩ .f32 0x00000000#32) (ix2 i j)
      = ∑ q : Fin K, A (ix2 i q) * B (ix2 j q) :=
  (Ideal.matmul_constant_zero_apply (dims M K N wf) prec A B (ix2 i j)).trans (sum_products wf A B i j)

end Cert.LibDotRows
-- ==== Proof.KernelBody.lean ====
/-
  What one grid point of the kernel leaves in its block of 8192 result rows, entry by entry.

  The block function takes the block's 8192 input rows x (128 numbers each) and, for each of the three layers, a weight
  array, a mask of the same extents and a one-row bias. It multiplies each weight array by its mask entry by entry,
  multiplies the rows so far against the ROWS of that masked array (both factors are summed along their second axis,
  into an all-zero accumulator), adds the bias row repeated down all 8192 rows, and keeps the larger of the sum and
  zero. In between it narrows numbers to a shorter format; over the extended reals a change of format changes nothing,
  the two zero constants are the number 0, a shape cast of a shape to itself moves nothing, and repeating a one-row array
  down the rows reads, at (p, j), its entry (0, j). So after each rectifier the array at (p, j) is

      max (∑ q, previous (p, q) · (W (j, q) · M (j, q)) + b (0, j)) 0,

  which is one layer of the specification applied to the previous array read as a function of row and column. The
  first two layers are one and the same vector term over different arguments; the third has 64 units, its product is the
  block function's inner term and its bias and rectifier are the block function's outer operations. Chaining the three
  equalities gives the three layers in sequence at (p, j). The only arithmetic fact used is that the product into a
  zero accumulator is the sum of products of row p against row j; everything else re-reads an array at a named index.
-/
import proofs.«173291_g58299886076360_cont_9to1_m_691_15_alg».proof.Proof.Gen.KernelIdeal.Value
import proofs.«173291_g58299886076360_cont_9to1_m_691_15_alg».proof.Proof.Spec
import proofs.«173291_g58299886076360_cont_9to1_m_691_15_alg».proof.Proof.LibDotRows
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The constants and the repeated bias row -/

/-- The short format's zero pattern is the number 0. -/
theorem zero16 : (Scalar.ofBits .bf16 0x0000#16 : Ideal .bf16) = 0 := by
  show Ideal.ofBits .bf16 0x0000#16 = 0
  simp [Ideal.ofBits, Ideal.ieee]

/-- The 32-bit format's zero pattern is the number 0. -/
theorem zero32 : (Scalar.ofBits .f32 0x00000000#32 : Ideal .f32) = 0 := Ideal.ofBits_zero_f32

/-- A [1 × 128] row repeated down 8192 rows reads, at (p, j), the row's entry (0, j). -/
theorem bias128_at {φ : FTy} (b : FVec Ideal S1x128 φ) (p : Fin 8192) (j : Fin 128) :
    broadcastTo S8192x128 b broadcasts_S1x128_S8192x128 (ix2 p j) = b (ix2 (0 : Fin 1) j) :=
  broadcastTo_apply b broadcasts_S1x128_S8192x128 (ix2 p j) (ix2 (0 : Fin 1) j) fun a => by
    match a with
    | ⟨0, _⟩ => rfl
    | ⟨1, _⟩ => rfl

/-! ## A hidden layer as the kernel writes it -/

/-- One of the kernel's two hidden layers as a vector term: the masked weights narrowed, the rows-against-rows product
    into zero narrowed, the narrowed bias row repeated and added, and the maximum with the short format's zero. -/
def hidden (A : FVec Ideal S8192x128 .bf16) (W Mk : Vec Ideal S128x128 .f32) (b : Vec Ideal S1x128 .f32) :
    FVec Ideal S8192x128 .bf16 :=
  maximumf
    (addf
      (truncf .bf16
        (matmul dot_S8192x128_S128x128_S8192x128_1_1_0_0_n_n none A (truncf .bf16 (mulf W Mk) bitsLt_bf16_f32)
          (constant S8192x128 .f32 0x00000000#32))
        bitsLt_bf16_f32)
      (broadcastTo S8192x128 (truncf .bf16 (shapeCast S1x128 b shapeCasts_S1x128_S1x128) bitsLt_bf16_f32)
        broadcasts_S1x128_S8192x128))
    (broadcast S8192x128 (Scalar.ofBits .bf16 0x0000#16))

/-- The hidden layers' product at entry (p, j): row p of the left array against row j of the masked weights. -/
theorem product128_at (A : FVec Ideal S8192x128 .bf16) (W Mk : Vec Ideal S128x128 .f32) (p : Fin 8192) (j : Fin 128) :
    matmul dot_S8192x128_S128x128_S8192x128_1_1_0_0_n_n none A (truncf .bf16 (mulf W Mk) bitsLt_bf16_f32)
        (constant S8192x128 .f32 0x00000000#32) (ix2 p j)
      = ∑ q : Fin 128, A (ix2 p q) * (W (ix2 j q) * Mk (ix2 j q)) :=
  Cert.LibDotRows.matmul_zero_rows 8192 128 128 dot_S8192x128_S128x128_S8192x128_1_1_0_0_n_n_wf none A
    (truncf .bf16 (mulf W Mk) bitsLt_bf16_f32) p j

/-- The last layer's product at entry (p, j): row p of the left array against row j of the 64 masked weight rows. -/
theorem product64_at (A : FVec Ideal S8192x128 .bf16) (W Mk : Vec Ideal S64x128 .f32) (p : Fin 8192) (j : Fin 64) :
    matmul dot_S8192x128_S64x128_S8192x64_1_1_0_0_n_n none A (truncf .bf16 (mulf W Mk) bitsLt_bf16_f32)
        (constant S8192x64 .f32 0x00000000#32) (ix2 p j)
      = ∑ q : Fin 128, A (ix2 p q) * (W (ix2 j q) * Mk (ix2 j q)) :=
  Cert.LibDotRows.matmul_zero_rows 8192 128 64 dot_S8192x128_S64x128_S8192x64_1_1_0_0_n_n_wf none A
    (truncf .bf16 (mulf W Mk) bitsLt_bf16_f32) p j

/-- A hidden layer at entry (p, j) is the specification's layer of its left array, read by row and column. -/
theorem hidden_at (A : FVec Ideal S8192x128 .bf16) (W Mk : Vec Ideal S128x128 .f32) (b : Vec Ideal S1x128 .f32)
    (p : Fin 8192) (j : Fin 128) :
    hidden A W Mk b (ix2 p j)
      = Cert.Mlp.layer (fun i q => A (ix2 i q)) (fun a q => W (ix2 a q)) (fun a q => Mk (ix2 a q))
          (fun a => b (ix2 (0 : Fin 1) a)) p j := by
  show max ((matmul dot_S8192x128_S128x128_S8192x128_1_1_0_0_n_n none A (truncf .bf16 (mulf W Mk) bitsLt_bf16_f32)
          (constant S8192x128 .f32 0x00000000#32) (ix2 p j) : EReal)
      + (broadcastTo S8192x128 (truncf (F := Ideal) .bf16 (shapeCast S1x128 b shapeCasts_S1x128_S1x128) bitsLt_bf16_f32)
          broadcasts_S1x128_S8192x128 (ix2 p j) : EReal))
      (Scalar.ofBits .bf16 0x0000#16 : Ideal .bf16) = _
  rw [product128_at, bias128_at, zero16, shapeCast_self]
  rfl

/-! ## The block function -/

/-- The block function's inner term is the last product over the two hidden layers, the first fed the narrowed input
    rows: the term's intermediate values substituted. -/
theorem pay_eq (x : Vec Ideal S8192x128 .f32) (W1 M1 : Vec Ideal S128x128 .f32) (b1 : Vec Ideal S1x128 .f32)
    (W2 M2 : Vec Ideal S128x128 .f32) (b2 : Vec Ideal S1x128 .f32) (W3 M3 : Vec Ideal S64x128 .f32) :
    k0_pay2 (F := Ideal) x W1 M1 b1 W2 M2 b2 W3 M3
      = matmul dot_S8192x128_S64x128_S8192x64_1_1_0_0_n_n none
          (hidden (hidden (truncf .bf16 x bitsLt_bf16_f32) W1 M1 b1) W2 M2 b2)
          (truncf .bf16 (mulf W3 M3) bitsLt_bf16_f32) (constant S8192x64 .f32 0x00000000#32) := rfl

/-- The block function at entry (p, j) is the three layers of the specification applied to the block's rows. -/
theorem block_eq (x : Vec Ideal S8192x128 .f32) (W1 M1 : Vec Ideal S128x128 .f32) (b1 : Vec Ideal S1x128 .f32)
    (W2 M2 : Vec Ideal S128x128 .f32) (b2 : Vec Ideal S1x128 .f32) (W3 M3 : Vec Ideal S64x128 .f32) (b3 : Vec Ideal S1x64 .f32)
    (p : Fin 8192) (j : Fin 64) :
    Cert.KernelIdeal.Value.E10 (F := Ideal) x W1 M1 b1 W2 M2 b2 W3 M3 b3 (ix2 p j)
      = Cert.Mlp.net (fun i q => x (ix2 i q))
          (fun a q => W1 (ix2 a q)) (fun a q => M1 (ix2 a q)) (fun a => b1 (ix2 (0 : Fin 1) a))
          (fun a q => W2 (ix2 a q)) (fun a q => M2 (ix2 a q)) (fun a => b2 (ix2 (0 : Fin 1) a))
          (fun a q => W3 (ix2 a q)) (fun a q => M3 (ix2 a q)) (fun a => b3 (ix2 (0 : Fin 1) a)) p j := by
  have h0 : Cert.KernelIdeal.Value.ix10_0 (ix2 p j) = ix2 p j := by
    funext a
    match a with
    | ⟨0, _⟩ => rfl
    | ⟨1, _⟩ => rfl
  have h1 : Cert.KernelIdeal.Value.ix10_1 (ix2 p j) = ix2 (0 : Fin 1) j := by
    funext a
    match a with
    | ⟨0, _⟩ => rfl
    | ⟨1, _⟩ => rfl
  show max (k0_pay2 (F := Ideal) x W1 M1 b1 W2 M2 b2 W3 M3 (Cert.KernelIdeal.Value.ix10_0 (ix2 p j))
      + b3 (Cert.KernelIdeal.Value.ix10_1 (ix2 p j))) (Scalar.ofBits .f32 0x00000000#32 : Ideal .f32) = _
  rw [h0, h1, zero32, pay_eq, product64_at]
  have e2 : ∀ q : Fin 128, hidden (hidden (truncf .bf16 x bitsLt_bf16_f32) W1 M1 b1) W2 M2 b2 (ix2 p q)
      = Cert.Mlp.layer (Cert.Mlp.layer (fun i q => x (ix2 i q)) (fun a q => W1 (ix2 a q)) (fun a q => M1 (ix2 a q))
            (fun a => b1 (ix2 (0 : Fin 1) a)))
          (fun a q => W2 (ix2 a q)) (fun a q => M2 (ix2 a q)) (fun a => b2 (ix2 (0 : Fin 1) a)) p q := fun q => by
    rw [hidden_at]
    have e1 : (fun (i : Fin 8192) (q : Fin 128) => hidden (truncf .bf16 x bitsLt_bf16_f32) W1 M1 b1 (ix2 i q))
        = Cert.Mlp.layer (fun i q => x (ix2 i q)) (fun a q => W1 (ix2 a q)) (fun a q => M1 (ix2 a q))
            (fun a => b1 (ix2 (0 : Fin 1) a)) :=
      funext fun i => funext fun q => hidden_at (truncf .bf16 x bitsLt_bf16_f32) W1 M1 b1 i q
    rw [e1]
  simp only [e2]
  rfl

end Cert.KernelIdeal.Body

end
-- ==== Proof.KernelValue.lean ====
/-
  From the kernel's blocks to its whole result array.

  The kernel runs over a grid of two points. Point t takes rows 8192·t … 8192·t + 8191 of the [16384 × 128] input
  array, the three weight arrays, the three masks and the three biases whole, and writes rows 8192·t … of the
  [16384 × 64] result. What a point writes is the three masked, rectified layers applied to its block of input rows.
  A layer's output row depends on the same row of its input only, so the three layers of a block of rows are the
  same rows of the three layers of the whole array: each point writes its block of ONE function of the argument
  arrays, the two blocks tile the result array, and so the array ends holding that function.

  The biases reach the kernel as [1 × 128] and [1 × 64] arrays that the program reshapes from the [128] and [64]
  arguments before the kernel starts; entry (0, q) of the reshaped array is entry q of the argument.
-/
import proofs.«173291_g58299886076360_cont_9to1_m_691_15_alg».proof.Proof.Gen.KernelIdeal.Value
import proofs.«173291_g58299886076360_cont_9to1_m_691_15_alg».proof.Proof.KernelBody
import proofs.«173291_g58299886076360_cont_9to1_m_691_15_alg».proof.Proof.Spec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a rank-2 rectangle, as the constant function. -/
theorem zeros : (![0, 0] : Fin 2 → Nat) = fun _ => 0 := funext fun a => by fin_cases a <;> rfl

/-! ## The biases as the kernel finds them -/

/-- The first layer's bias as staged: the [128] argument reshaped to [1 × 128]. -/
theorem bias1_staged (c : Dev nD) :
    (V m c main_call0_v0 : S1x128.Idx → EReal)
      = shapeCast S1x128 (m ((c : Thread nD τ).loc main_arg2)) shapeCasts_S128_S1x128 := by
  dsimp only [Gen.V, Gen.hostOps0]; after_results; rfl

/-- The second layer's bias as staged: the [128] argument reshaped to [1 × 128]. -/
theorem bias2_staged (c : Dev nD) :
    (V m c main_call0_v1 : S1x128.Idx → EReal)
      = shapeCast S1x128 (m ((c : Thread nD τ).loc main_arg5)) shapeCasts_S128_S1x128 := by
  dsimp only [Gen.V, Gen.hostOps0]; after_results; rfl

/-- The third layer's bias as staged: the [64] argument reshaped to [1 × 64]. -/
theorem bias3_staged (c : Dev nD) :
    (V m c main_call0_v2 : S1x64.Idx → EReal)
      = shapeCast S1x64 (m ((c : Thread nD τ).loc main_arg8)) shapeCasts_S64_S1x64 := by
  dsimp only [Gen.V, Gen.hostOps0]; after_results; rfl

/-- Entry (0, q) of a [128] array reshaped to [1 × 128] is its entry q. -/
theorem reshape128_apply (b : S128.Idx → EReal) (q : Fin 128) :
    shapeCast S1x128 b shapeCasts_S128_S1x128 (ix2 (0 : Fin 1) q) = b (ix1 q) := by
  refine shapeCast_apply b _ (ix2 (0 : Fin 1) q) (ix1 q) ?_
  rw [Shape.rowMajor_val_two, Shape.rowMajor_val_one]
  show q.val = 0 * 128 + q.val
  omega

/-- Entry (0, q) of a [64] array reshaped to [1 × 64] is its entry q. -/
theorem reshape64_apply (b : S64.Idx → EReal) (q : Fin 64) :
    shapeCast S1x64 b shapeCasts_S64_S1x64 (ix2 (0 : Fin 1) q) = b (ix1 q) := by
  refine shapeCast_apply b _ (ix2 (0 : Fin 1) q) (ix1 q) ?_
  rw [Shape.rowMajor_val_two, Shape.rowMajor_val_one]
  show q.val = 0 * 64 + q.val
  omega

/-! ## Where each window's block sits at a point -/

/-- The printed index maps, decided over the two points: the input rows' window and the result's window are at block
    (t, 0); every weight, mask and bias window is at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- The grid has two points. -/
theorem point_lt (t : Fin cfg0.N) : t.val < 2 := by
  have h : cfg0.N = 2 := N_0
  have := t.isLt
  omega

/-- Row p of point t's block is row 8192·t + p of the whole array. -/
def rowOf (t : Fin cfg0.N) (p : Fin 8192) : Fin 16384 :=
  ⟨8192 * t.val + p.val, by have := point_lt t; have := p.isLt; omega⟩

/-- The input rows' block at point t: entry (p, q) is entry (8192·t + p, q) of the input array. -/
theorem rows_block (c : Dev nD) (t : Fin cfg0.N) (p : Fin 8192) (q : Fin 128) :
    (iblk m c 0 t : Vec Ideal S8192x128 .f32) (ix2 p q)
      = (m ((c : Thread nD τ).loc main_arg0) : S16384x128.Idx → EReal) (ix2 (rowOf t p) q) := by
  obtain ⟨e0, e1, -⟩ := idx_facts t
  show V m c main_arg0 (((cfg0.win 0).blk t).view.emb (ix2 p q)) = _
  rw [V_main_arg0 m c]
  congr 1
  funext a
  apply Fin.ext
  match a with
  | ⟨0, _⟩ => show win0_0.index t (0 : Fin 2) * 8192 + 1 * p.val = 8192 * t.val + p.val; omega
  | ⟨1, _⟩ => show win0_0.index t (1 : Fin 2) * 128 + 1 * q.val = q.val; omega

/-! ## The weights, masks and biases: staged whole at every point -/

/-- The first layer's weights at any point are the whole argument. -/
theorem weights1_block (c : Dev nD) (t : Fin cfg0.N) (a : Fin 128) (q : Fin 128) :
    (iblk m c 1 t : Vec Ideal S128x128 .f32) (ix2 a q)
      = (m ((c : Thread nD τ).loc main_arg1) : S128x128.Idx → EReal) (ix2 a q) := by
  obtain ⟨-, -, h1a, h1b, -, -, h3a, h3b, h4a, h4b, -, -, h6a, h6b, h7a, h7b, -, -, h9a, h9b, -⟩ := idx_facts t
  show V m c main_arg1 (((cfg0.win 1).blk t).view.emb (ix2 a q)) = _
  rw [V_main_arg1 m c]
  congr 1
  funext d
  apply Fin.ext
  match d with
  | ⟨0, _⟩ => show win0_1.index t (0 : Fin 2) * 128 + 1 * a.val = a.val; omega
  | ⟨1, _⟩ => show win0_1.index t (1 : Fin 2) * 128 + 1 * q.val = q.val; omega

/-- The first layer's mask at any point is the whole argument. -/
theorem mask1_block (c : Dev nD) (t : Fin cfg0.N) (a : Fin 128) (q : Fin 128) :
    (iblk m c 3 t : Vec Ideal S128x128 .f32) (ix2 a q)
      = (m ((c : Thread nD τ).loc main_arg3) : S128x128.Idx → EReal) (ix2 a q) := by
  obtain ⟨-, -, h1a, h1b, -, -, h3a, h3b, h4a, h4b, -, -, h6a, h6b, h7a, h7b, -, -, h9a, h9b, -⟩ := idx_facts t
  show V m c main_arg3 (((cfg0.win 3).blk t).view.emb (ix2 a q)) = _
  rw [V_main_arg3 m c]
  congr 1
  funext d
  apply Fin.ext
  match d with
  | ⟨0, _⟩ => show win0_3.index t (0 : Fin 2) * 128 + 1 * a.val = a.val; omega
  | ⟨1, _⟩ => show win0_3.index t (1 : Fin 2) * 128 + 1 * q.val = q.val; omega

/-- The second layer's weights at any point are the whole argument. -/
theorem weights2_block (c : Dev nD) (t : Fin cfg0.N) (a : Fin 128) (q : Fin 128) :
    (iblk m c 4 t : Vec Ideal S128x128 .f32) (ix2 a q)
      = (m ((c : Thread nD τ).loc main_arg4) : S128x128.Idx → EReal) (ix2 a q) := by
  obtain ⟨-, -, h1a, h1b, -, -, h3a, h3b, h4a, h4b, -, -, h6a, h6b, h7a, h7b, -, -, h9a, h9b, -⟩ := idx_facts t
  show V m c main_arg4 (((cfg0.win 4).blk t).view.emb (ix2 a q)) = _
  rw [V_main_arg4 m c]
  congr 1
  funext d
  apply Fin.ext
  match d with
  | ⟨0, _⟩ => show win0_4.index t (0 : Fin 2) * 128 + 1 * a.val = a.val; omega
  | ⟨1, _⟩ => show win0_4.index t (1 : Fin 2) * 128 + 1 * q.val = q.val; omega

/-- The second layer's mask at any point is the whole argument. -/
theorem mask2_block (c : Dev nD) (t : Fin cfg0.N) (a : Fin 128) (q : Fin 128) :
    (iblk m c 6 t : Vec Ideal S128x128 .f32) (ix2 a q)
      = (m ((c : Thread nD τ).loc main_arg6) : S128x128.Idx → EReal) (ix2 a q) := by
  obtain ⟨-, -, h1a, h1b, -, -, h3a, h3b, h4a, h4b, -, -, h6a, h6b, h7a, h7b, -, -, h9a, h9b, -⟩ := idx_facts t
  show V m c main_arg6 (((cfg0.win 6).blk t).view.emb (ix2 a q)) = _
  rw [V_main_arg6 m c]
  congr 1
  funext d
  apply Fin.ext
  match d with
  | ⟨0, _⟩ => show win0_6.index t (0 : Fin 2) * 128 + 1 * a.val = a.val; omega
  | ⟨1, _⟩ => show win0_6.index t (1 : Fin 2) * 128 + 1 * q.val = q.val; omega

/-- The third layer's weights at any point are the whole argument. -/
theorem weights3_block (c : Dev nD) (t : Fin cfg0.N) (a : Fin 64) (q : Fin 128) :
    (iblk m c 7 t : Vec Ideal S64x128 .f32) (ix2 a q)
      = (m ((c : Thread nD τ).loc main_arg7) : S64x128.Idx → EReal) (ix2 a q) := by
  obtain ⟨-, -, h1a, h1b, -, -, h3a, h3b, h4a, h4b, -, -, h6a, h6b, h7a, h7b, -, -, h9a, h9b, -⟩ := idx_facts t
  show V m c main_arg7 (((cfg0.win 7).blk t).view.emb (ix2 a q)) = _
  rw [V_main_arg7 m c]
  congr 1
  funext d
  apply Fin.ext
  match d with
  | ⟨0, _⟩ => show win0_7.index t (0 : Fin 2) * 64 + 1 * a.val = a.val; omega
  | ⟨1, _⟩ => show win0_7.index t (1 : Fin 2) * 128 + 1 * q.val = q.val; omega

/-- The third layer's mask at any point is the whole argument. -/
theorem mask3_block (c : Dev nD) (t : Fin cfg0.N) (a : Fin 64) (q : Fin 128) :
    (iblk m c 9 t : Vec Ideal S64x128 .f32) (ix2 a q)
      = (m ((c : Thread nD τ).loc main_arg9) : S64x128.Idx → EReal) (ix2 a q) := by
  obtain ⟨-, -, h1a, h1b, -, -, h3a, h3b, h4a, h4b, -, -, h6a, h6b, h7a, h7b, -, -, h9a, h9b, -⟩ := idx_facts t
  show V m c main_arg9 (((cfg0.win 9).blk t).view.emb (ix2 a q)) = _
  rw [V_main_arg9 m c]
  congr 1
  funext d
  apply Fin.ext
  match d with
  | ⟨0, _⟩ => show win0_9.index t (0 : Fin 2) * 64 + 1 * a.val = a.val; omega
  | ⟨1, _⟩ => show win0_9.index t (1 : Fin 2) * 128 + 1 * q.val = q.val; omega

/-- The first layer's bias at any point: entry (0, q) of the staged array is entry q of the argument. -/
theorem bias1_block (c : Dev nD) (t : Fin cfg0.N) (q : Fin 128) :
    (iblk m c 2 t : Vec Ideal S1x128 .f32) (ix2 (0 : Fin 1) q)
      = (m ((c : Thread nD τ).loc main_arg2) : S128.Idx → EReal) (ix1 q) := by
  obtain ⟨-, -, -, -, h2a, h2b, -, -, -, -, h5a, h5b, -, -, -, -, h8a, h8b, -⟩ := idx_facts t
  show V m c main_call0_v0 (((cfg0.win 2).blk t).view.emb (ix2 (0 : Fin 1) q)) = _
  rw [bias1_staged m c]
  refine Eq.trans (congrArg _ ?_) (reshape128_apply _ q)
  funext d
  apply Fin.ext
  match d with
  | ⟨0, _⟩ => show win0_2.index t (0 : Fin 2) * 1 + 1 * 0 = 0; omega
  | ⟨1, _⟩ => show win0_2.index t (1 : Fin 2) * 128 + 1 * q.val = q.val; omega

/-- The second layer's bias at any point: entry (0, q) of the staged array is entry q of the argument. -/
theorem bias2_block (c : Dev nD) (t : Fin cfg0.N) (q : Fin 128) :
    (iblk m c 5 t : Vec Ideal S1x128 .f32) (ix2 (0 : Fin 1) q)
      = (m ((c : Thread nD τ).loc main_arg5) : S128.Idx → EReal) (ix1 q) := by
  obtain ⟨-, -, -, -, h2a, h2b, -, -, -, -, h5a, h5b, -, -, -, -, h8a, h8b, -⟩ := idx_facts t
  show V m c main_call0_v1 (((cfg0.win 5).blk t).view.emb (ix2 (0 : Fin 1) q)) = _
  rw [bias2_staged m c]
  refine Eq.trans (congrArg _ ?_) (reshape128_apply _ q)
  funext d
  apply Fin.ext
  match d with
  | ⟨0, _⟩ => show win0_5.index t (0 : Fin 2) * 1 + 1 * 0 = 0; omega
  | ⟨1, _⟩ => show win0_5.index t (1 : Fin 2) * 128 + 1 * q.val = q.val; omega

/-- The third layer's bias at any point: entry (0, q) of the staged array is entry q of the argument. -/
theorem bias3_block (c : Dev nD) (t : Fin cfg0.N) (q : Fin 64) :
    (iblk m c 8 t : Vec Ideal S1x64 .f32) (ix2 (0 : Fin 1) q)
      = (m ((c : Thread nD τ).loc main_arg8) : S64.Idx → EReal) (ix1 q) := by
  obtain ⟨-, -, -, -, h2a, h2b, -, -, -, -, h5a, h5b, -, -, -, -, h8a, h8b, -⟩ := idx_facts t
  show V m c main_call0_v2 (((cfg0.win 8).blk t).view.emb (ix2 (0 : Fin 1) q)) = _
  rw [bias3_staged m c]
  refine Eq.trans (congrArg _ ?_) (reshape64_apply _ q)
  funext d
  apply Fin.ext
  match d with
  | ⟨0, _⟩ => show win0_8.index t (0 : Fin 2) * 1 + 1 * 0 = 0; omega
  | ⟨1, _⟩ => show win0_8.index t (1 : Fin 2) * 64 + 1 * q.val = q.val; omega

/-! ## What a point writes back -/

/-- What the body leaves in the result's buffer, for any blocks it is given: the three layers of the rows' block
    against the weights, masks and biases it holds. -/
theorem body_out (x0 : Vec Ideal S8192x128 .f32) (x1 : Vec Ideal S128x128 .f32) (x2 : Vec Ideal S1x128 .f32)
    (x3 : Vec Ideal S128x128 .f32) (x4 : Vec Ideal S128x128 .f32) (x5 : Vec Ideal S1x128 .f32)
    (x6 : Vec Ideal S128x128 .f32) (x7 : Vec Ideal S64x128 .f32) (x8 : Vec Ideal S1x64 .f32)
    (x9 : Vec Ideal S64x128 .f32) (p : Fin 8192) (j : Fin 64) :
    out0_10 x0 x1 x2 x3 x4 x5 x6 x7 x8 x9 (ix2 p j)
      = Cert.Mlp.net (fun i q => x0 (ix2 i q))
          (fun a q => x1 (ix2 a q)) (fun a q => x3 (ix2 a q)) (fun a => x2 (ix2 (0 : Fin 1) a))
          (fun a q => x4 (ix2 a q)) (fun a q => x6 (ix2 a q)) (fun a => x5 (ix2 (0 : Fin 1) a))
          (fun a q => x7 (ix2 a q)) (fun a q => x9 (ix2 a q)) (fun a => x8 (ix2 (0 : Fin 1) a)) p j := by
  unfold out0_10
  simp only [View.ld_unit_zero (S := S8192x128) zeros, View.ld_unit_zero (S := S128x128) zeros,
    View.ld_unit_zero (S := S1x128) zeros, View.ld_unit_zero (S := S64x128) zeros,
    View.ld_unit_zero (S := S1x64) zeros]
  exact (Value.canon10_eq x0 x1 x3 x2 x4 x6 x5 x7 x9 x8 (ix2 p j)).trans
    (Body.block_eq x0 x1 x3 x2 x4 x6 x5 x7 x9 x8 p j)

/-- The whole result array: the three layers of the input array's rows against the weight, mask and bias arguments. -/
abbrev result (c : Dev nD) : S16384x64.Idx → EReal :=
  Cert.Mlp.out (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))

/-- Entry (p, j) of what point t's body leaves is entry (8192·t + p, j) of the whole result: the block's rows are rows
    of the input array, the other operands are the arguments, and a layer acts on each row by itself. -/
theorem point_out (c : Dev nD) (t : Fin cfg0.N) (p : Fin 8192) (j : Fin 64) :
    out0_10 (iblk m c 0 t) (iblk m c 1 t) (iblk m c 2 t) (iblk m c 3 t) (iblk m c 4 t) (iblk m c 5 t)
        (iblk m c 6 t) (iblk m c 7 t) (iblk m c 8 t) (iblk m c 9 t) (ix2 p j)
      = result m c (ix2 (rowOf t p) j) := by
  refine (body_out (iblk m c 0 t) (iblk m c 1 t) (iblk m c 2 t) (iblk m c 3 t) (iblk m c 4 t) (iblk m c 5 t)
    (iblk m c 6 t) (iblk m c 7 t) (iblk m c 8 t) (iblk m c 9 t) p j).trans ?_
  rw [funext fun i => funext fun q => rows_block m c t i q,
    funext fun a => funext fun q => weights1_block m c t a q,
    funext fun a => funext fun q => mask1_block m c t a q,
    funext fun a => bias1_block m c t a,
    funext fun a => funext fun q => weights2_block m c t a q,
    funext fun a => funext fun q => mask2_block m c t a q,
    funext fun a => bias2_block m c t a,
    funext fun a => funext fun q => weights3_block m c t a q,
    funext fun a => funext fun q => mask3_block m c t a q,
    funext fun a => bias3_block m c t a]
  rfl

/-- WHAT POINT t WRITES BACK is block t of the whole result. -/
theorem flushed_eq (c : Dev nD) (t : Fin cfg0.N) :
    (dats m 0 c).flushed 10 t = ((cfg0.win 10).blk t).view.read (Elt Ideal) (result m c) := by
  rw [Value.flushed10]
  obtain ⟨-, -, -, -, -, -, -, -, -, -, -, -, -, -, -, -, -, -, -, -, ea, eb⟩ := idx_facts t
  funext y
  obtain ⟨p, j, rfl⟩ : ∃ (p : Fin 8192) (j : Fin 64), y = ix2 p j := ⟨y 0, y 1, eq_ix2 y⟩
  show out0_10 (iblk m c 0 t) (iblk m c 1 t) (iblk m c 2 t) (iblk m c 3 t) (iblk m c 4 t) (iblk m c 5 t)
        (iblk m c 6 t) (iblk m c 7 t) (iblk m c 8 t) (iblk m c 9 t) (ix2 p j)
      = result m c (((cfg0.win 10).blk t).view.emb (ix2 p j))
  refine (point_out m c t p j).trans (congrArg (result m c) ?_)
  funext a
  apply Fin.ext
  match a with
  | ⟨0, _⟩ => show 8192 * t.val + p.val = win0_10.index t (0 : Fin 2) * 8192 + 1 * p.val; omega
  | ⟨1, _⟩ => show j.val = win0_10.index t (1 : Fin 2) * 64 + 1 * j.val; omega

/-! ## The two blocks tile the result -/

/-- An index of the result array is in point t's block iff each coordinate is in the block's range on its axis. -/
theorem mem_block (t : Fin cfg0.N) (i : S16384x64.Idx) :
    i ∈ ((cfg0.win 10).blk t).view.set ↔ ∀ a : Fin 2, win0_10.index t a * S8192x64.size a ≤ (i a).val
      ∧ (i a).val < win0_10.index t a * S8192x64.size a + S8192x64.size a := by
  show i ∈ ((View.whole main_v0).slice (win0_10.rect t)).set ↔ _
  rw [View.set_slice_whole, Rect.mem_set_unit]
  exact Iff.rfl

/-- Every index of the result array is in the block of the point its row falls in: row r is in block r / 8192. -/
theorem cover (i : S16384x64.Idx) :
    ∃ t : Fin cfg0.N, (cfg0.win 10).flush t = true ∧ i ∈ ((cfg0.win 10).blk t).view.set := by
  have hi0 : (i 0).val < 16384 := (i 0).isLt
  have hi1 : (i 1).val < 64 := (i 1).isLt
  have hN : cfg0.N = 2 := N_0
  obtain ⟨t, ht⟩ : ∃ t : Fin cfg0.N, t.val = (i 0).val / 8192 := ⟨⟨(i 0).val / 8192, by omega⟩, rfl⟩
  obtain ⟨-, -, -, -, -, -, -, -, -, -, -, -, -, -, -, -, -, -, -, -, ea, eb⟩ := idx_facts t
  refine ⟨t, flush0_10 t, ?_⟩
  rw [mem_block]
  intro a
  match a with
  | ⟨0, _⟩ =>
    show win0_10.index t (0 : Fin 2) * 8192 ≤ (i 0).val ∧ (i 0).val < win0_10.index t (0 : Fin 2) * 8192 + 8192
    omega
  | ⟨1, _⟩ =>
    show win0_10.index t (1 : Fin 2) * 64 ≤ (i 1).val ∧ (i 1).val < win0_10.index t (1 : Fin 2) * 64 + 64
    omega

/-- THE RESULT ARRAY after the run is the whole result. -/
theorem final (c : Dev nD) : (dats m 0 c).arrAt 10 cfg0.N = result m c :=
  (dats m 0 c).arrAt_eq_of_cover 10 (result m c) (fun t _ => flushed_eq m c t) cover

/-! ## The run, read -/

/-- The kernel's run: the result array ends at the three masked, rectified layers of the input array's rows, and every
    argument array is as launched. -/
theorem run : θ_run defs (onTc (τ := τ) (main (F := Ideal))) ⟨m, fun _ => 0, ρ⟩ fun r => ∀ c : Dev nD,
      r.2.mem ((c : Thread nD τ).loc main_v0)
        = Cert.Mlp.out (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
            (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.RefTerm.lean ====
/-
  The reference's result as one term of its ten arguments.

  The reference keeps one [16384 × 448] array of all units' activations, initially zero. It writes the inputs into
  columns 0 … 127, reads those columns back, applies the first layer, writes its output into columns 128 … 255, reads
  them back, and so on; the last layer's 64 outputs go to columns 384 … 447 and are read back as the result.
  A column range is named by the vector of its column numbers (`iota` plus the first column). Before a write or a read
  a column number below zero is moved up by 448 (`wrapped`); a read also checks each column number against the range
  0 … 447 and would fill a column outside it with a not-a-number pattern (`readCols`).
  A layer is the product of the rows read with the transposed masked weights, plus the bias laid along the rows,
  then the larger of that and zero (`dense`).
-/
import proofs.«173291_g58299886076360_cont_9to1_m_691_15_alg».proof.ReferenceIdeal

noncomputable section

namespace Cert.ReferenceIdeal.Term

open Cert.ReferenceIdeal Idealize.ShloMosaic
open Cert.ReferenceIdeal.Facts₀

variable {F : FTy → Type} [FloatOps F] [Facts]

/-! ## 128 columns at a time -/

/-- Column numbers as an [128 × 1] table, a negative one moved up by 448. -/
def wrapped128 (idx : IVec S128 32) : IVec S128x1 32 :=
  broadcastInDim S128x1 ![0] bcast_S128_S128x1_0
    (select (cmpi .slt idx (broadcastInDim S128 ![] bcast_S_S128 (constantI S_ 32 0#32)))
      (addi idx (broadcastInDim S128 ![] bcast_S_S128 (constantI S_ 32 448#32))) idx)

/-- The columns `idx` names overwritten with the [16384 × 128] array `upd`. -/
def writeCols128 (x : FVec F S16384x448 .f32) (idx : IVec S128 32) (upd : FVec F S16384x128 .f32) : FVec F S16384x448 .f32 :=
  Host.scatter scatter_S16384x448_S128x1_S16384x128_0_1_1_1 (fun _ b => b) x (wrapped128 idx) upd

/-- One bit per column number: set when the wrapped number lies in 0 … 447. -/
def inRange128 (idx : IVec S128 32) : IVec S128 1 :=
  Host.reduce IntOp.andi
    (andi (cmpi .sge (wrapped128 idx) (broadcastInDim S128x1 ![] bcast_S_S128x1 (constantI S_ 32 0#32)))
      (cmpi .sle (wrapped128 idx)
        (broadcastInDim S128x1 ![0, 1] bcast_S1x1_S128x1_0_1 (broadcastInDim S1x1 ![1] bcast_S1_S1x1_1 (constantI S1 32 447#32)))))
    (constantI S_ 1 1#1) reducesTo_S128x1_S128_d1 h_S_

/-- The columns `idx` names read out as a [16384 × 128] array; a column whose number is out of range is filled. -/
def readCols128 (x : FVec F S16384x448 .f32) (idx : IVec S128 32) : FVec F S16384x128 .f32 :=
  select (broadcastInDim S16384x128 ![1] bcast_S128_S16384x128_1 (inRange128 idx))
    (Host.gather gather_S16384x448_S128x1_S16384x128_0_1_n_n_1_1_163841 x (wrapped128 idx))
    (broadcastInDim S16384x128 ![] bcast_S_S16384x128 (constant S_ .f32 0x7FC00000#32))

/-- A layer of 128 units over 128 inputs. -/
def dense128 (x : FVec F S16384x128 .f32) (W M : FVec F S128x128 .f32) (b : FVec F S128 .f32) : FVec F S16384x128 .f32 :=
  maximumf
    (addf (Host.dotGeneral dot_S16384x128_S128x128_S16384x128_1_0_0_1_n_n none x
        (transpose S128x128 [1, 0] (mulf W M) transposes_S128x128_S128x128_1_0))
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-! ## 64 columns at a time -/

/-- Column numbers as a [64 × 1] table, a negative one moved up by 448. -/
def wrapped64 (idx : IVec S64 32) : IVec S64x1 32 :=
  broadcastInDim S64x1 ![0] bcast_S64_S64x1_0
    (select (cmpi .slt idx (broadcastInDim S64 ![] bcast_S_S64 (constantI S_ 32 0#32)))
      (addi idx (broadcastInDim S64 ![] bcast_S_S64 (constantI S_ 32 448#32))) idx)

/-- The columns `idx` names overwritten with the [16384 × 64] array `upd`. -/
def writeCols64 (x : FVec F S16384x448 .f32) (idx : IVec S64 32) (upd : FVec F S16384x64 .f32) : FVec F S16384x448 .f32 :=
  Host.scatter scatter_S16384x448_S64x1_S16384x64_0_1_1_1 (fun _ b => b) x (wrapped64 idx) upd

/-- One bit per column number: set when the wrapped number lies in 0 … 447. -/
def inRange64 (idx : IVec S64 32) : IVec S64 1 :=
  Host.reduce IntOp.andi
    (andi (cmpi .sge (wrapped64 idx) (broadcastInDim S64x1 ![] bcast_S_S64x1 (constantI S_ 32 0#32)))
      (cmpi .sle (wrapped64 idx)
        (broadcastInDim S64x1 ![0, 1] bcast_S1x1_S64x1_0_1 (broadcastInDim S1x1 ![1] bcast_S1_S1x1_1 (constantI S1 32 447#32)))))
    (constantI S_ 1 1#1) reducesTo_S64x1_S64_d1 h_S_

/-- The columns `idx` names read out as a [16384 × 64] array; a column whose number is out of range is filled. -/
def readCols64 (x : FVec F S16384x448 .f32) (idx : IVec S64 32) : FVec F S16384x64 .f32 :=
  select (broadcastInDim S16384x64 ![1] bcast_S64_S16384x64_1 (inRange64 idx))
    (Host.gather gather_S16384x448_S64x1_S16384x64_0_1_n_n_1_1_163841 x (wrapped64 idx))
    (broadcastInDim S16384x64 ![] bcast_S_S16384x64 (constant S_ .f32 0x7FC00000#32))

/-- The layer of 64 units over 128 inputs. -/
def dense64 (x : FVec F S16384x128 .f32) (W M : FVec F S64x128 .f32) (b : FVec F S64 .f32) : FVec F S16384x64 .f32 :=
  maximumf
    (addf (Host.dotGeneral dot_S16384x128_S128x64_S16384x64_1_0_0_1_n_n none x
        (transpose S128x64 [1, 0] (mulf W M) transposes_S64x128_S128x64_1_0))
      (broadcastInDim S16384x64 ![0, 1] bcast_S1x64_S16384x64_0_1 (broadcastInDim S1x64 ![1] bcast_S64_S1x64_1 b)))
    (broadcastInDim S16384x64 ![] bcast_S_S16384x64 (constant S_ .f32 0x00000000#32))

/-! ## The column ranges and the whole computation -/

/-- Columns 0 … 127. -/
def colsIn : IVec S128 32 := iotaInDim S128 32 0
/-- Columns 128 … 255. -/
def colsH1 : IVec S128 32 := addi (broadcastInDim S128 ![] bcast_S_S128 (constantI S_ 32 128#32)) (iotaInDim S128 32 0)
/-- Columns 256 … 383. -/
def colsH2 : IVec S128 32 := addi (broadcastInDim S128 ![] bcast_S_S128 (constantI S_ 32 256#32)) (iotaInDim S128 32 0)
/-- Columns 384 … 447. -/
def colsOut : IVec S64 32 := addi (broadcastInDim S64 ![] bcast_S_S64 (constantI S_ 32 384#32)) (iotaInDim S64 32 0)

/-- The activations array after the inputs are written. -/
def acts0 (a0 : FVec F S16384x128 .f32) : FVec F S16384x448 .f32 :=
  writeCols128 (broadcastInDim S16384x448 ![] bcast_S_S16384x448 (constant S_ .f32 0x00000000#32)) colsIn a0

/-- The first layer's output. -/
def hidden1 (a0 : FVec F S16384x128 .f32) (a1 : FVec F S128x128 .f32) (a2 : FVec F S128 .f32) (a3 : FVec F S128x128 .f32) :
    FVec F S16384x128 .f32 :=
  dense128 (readCols128 (acts0 a0) colsIn) a1 a3 a2

/-- The activations array after the first layer's output is written. -/
def acts1 (a0 : FVec F S16384x128 .f32) (a1 : FVec F S128x128 .f32) (a2 : FVec F S128 .f32) (a3 : FVec F S128x128 .f32) :
    FVec F S16384x448 .f32 :=
  writeCols128 (acts0 a0) colsH1 (hidden1 a0 a1 a2 a3)

/-- The second layer's output. -/
def hidden2 (a0 : FVec F S16384x128 .f32) (a1 : FVec F S128x128 .f32) (a2 : FVec F S128 .f32) (a3 : FVec F S128x128 .f32)
    (a4 : FVec F S128x128 .f32) (a5 : FVec F S128 .f32) (a6 : FVec F S128x128 .f32) : FVec F S16384x128 .f32 :=
  dense128 (readCols128 (acts1 a0 a1 a2 a3) colsH1) a4 a6 a5

/-- The activations array after the second layer's output is written. -/
def acts2 (a0 : FVec F S16384x128 .f32) (a1 : FVec F S128x128 .f32) (a2 : FVec F S128 .f32) (a3 : FVec F S128x128 .f32)
    (a4 : FVec F S128x128 .f32) (a5 : FVec F S128 .f32) (a6 : FVec F S128x128 .f32) : FVec F S16384x448 .f32 :=
  writeCols128 (acts1 a0 a1 a2 a3) colsH2 (hidden2 a0 a1 a2 a3 a4 a5 a6)

/-- The last layer's output. -/
def last (a0 : FVec F S16384x128 .f32) (a1 : FVec F S128x128 .f32) (a2 : FVec F S128 .f32) (a3 : FVec F S128x128 .f32)
    (a4 : FVec F S128x128 .f32) (a5 : FVec F S128 .f32) (a6 : FVec F S128x128 .f32)
    (a7 : FVec F S64x128 .f32) (a8 : FVec F S64 .f32) (a9 : FVec F S64x128 .f32) : FVec F S16384x64 .f32 :=
  dense64 (readCols128 (acts2 a0 a1 a2 a3 a4 a5 a6) colsH2) a7 a9 a8

/-- The reference's result: the last layer's output written to columns 384 … 447 and read back. -/
def res (a0 : FVec F S16384x128 .f32) (a1 : FVec F S128x128 .f32) (a2 : FVec F S128 .f32) (a3 : FVec F S128x128 .f32)
    (a4 : FVec F S128x128 .f32) (a5 : FVec F S128 .f32) (a6 : FVec F S128x128 .f32)
    (a7 : FVec F S64x128 .f32) (a8 : FVec F S64 .f32) (a9 : FVec F S64x128 .f32) : FVec F S16384x64 .f32 :=
  readCols64 (writeCols64 (acts2 a0 a1 a2 a3 a4 a5 a6) colsOut (last a0 a1 a2 a3 a4 a5 a6 a7 a8 a9)) colsOut

end Cert.ReferenceIdeal.Term

end
-- ==== Proof.RefRun0.lean ====
/-
  The reference program as a list of its operations.

  The program is a straight line of whole-array operations, each writing one array of its own. A read of a column
  range (`takeOps`, `take64Ops`) is the same twenty-three operations each time it occurs, over the arrays of that
  occurrence: the column numbers compared with zero, moved up by 448 where negative, laid out as a one-column table,
  compared with 0 and 447, the two comparisons joined and folded along the row, the columns gathered, and the gathered
  array kept where the fold says the column number is in range. Between two reads stand a layer (the masked weights,
  their transpose, the product, the bias laid along the rows, the sum, the larger of it and zero) and a write of the
  layer's output into its column range.

  This module lists the operations stretch by stretch, shows that the program is that list run in order (the two
  sides unfold to the same chain of steps), and records for every stretch which arrays it touches and writes.
-/
import proofs.«173291_g58299886076360_cont_9to1_m_691_15_alg».proof.Proof.RefTerm
import proofs.«173291_g58299886076360_cont_9to1_m_691_15_alg».proof.Proof.Gen.ReferenceIdeal
import Idealize.ShloMosaic.Lib.StableHlo.Run
import Idealize.ShloMosaic.Lib.Pipeline.Frame
import Idealize.ShloMosaic.Lib.Pipeline.Regions

noncomputable section

namespace Cert.ReferenceIdeal.Run

open Cert.ReferenceIdeal Idealize.ShloMosaic Idealize.ShloMosaic.TcCoe Idealize.SL.Sem Idealize.ShloMosaic.StableHlo
open Cert.ReferenceIdeal.Facts₀

variable {F : FTy → Type} [FloatOps F]

/-- Membership of a written array among a literal list of arrays, for every kind of operation. -/
local macro "written" : tactic =>
  `(tactic| (simp only [nullary_writes, unary_writes, binary_writes, ternary_writes, Finset.singleton_subset_iff, List.mem_toFinset]
             exact List.mem_map_of_mem (by simp only [List.mem_cons, true_or, or_true])))

/-! ## A read of a column range -/

/-- One read of 128 columns of the array `x` named by the vector `idx`, over the arrays `φ` of that read. -/
def takeOps (x : TRef sig ⟨S16384x448, .f32⟩) (idx : TRef sig ⟨S128, .i32⟩) (φ : fn_take.Bufs) : List (HloOp τ sig (Elt F)) :=
  [ TRef.nullary φ.c (constantI S_ 32 0#32),
    TRef.unary φ.c φ.v0 (broadcastInDim S128 ![] bcast_S_S128),
    TRef.binary idx φ.v0 φ.v1 (cmpi .slt),
    TRef.nullary φ.c_0 (constantI S_ 32 448#32),
    TRef.unary φ.c_0 φ.v2 (broadcastInDim S128 ![] bcast_S_S128),
    TRef.binary idx φ.v2 φ.v3 addi,
    TRef.ternary φ.v1 φ.v3 idx φ.call0.v0 select,
    TRef.unary φ.call0.v0 φ.v5 (broadcastInDim S128x1 ![0] bcast_S128_S128x1_0),
    TRef.nullary φ.c_1 (constantI S1 32 447#32),
    TRef.nullary φ.c_2 (constantI S_ 32 0#32),
    TRef.unary φ.c_2 φ.v6 (broadcastInDim S128x1 ![] bcast_S_S128x1),
    TRef.binary φ.v5 φ.v6 φ.v7 (cmpi .sge),
    TRef.unary φ.c_1 φ.v8 (broadcastInDim S1x1 ![1] bcast_S1_S1x1_1),
    TRef.unary φ.v8 φ.v9 (broadcastInDim S128x1 ![0, 1] bcast_S1x1_S128x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S128x1_S128_d1 h_S_),
    TRef.binary x φ.v5 φ.v13 (fun x i => Host.gather gather_S16384x448_S128x1_S16384x128_0_1_n_n_1_1_163841 x i),
    TRef.unary φ.v12 φ.v14 (broadcastInDim S16384x128 ![1] bcast_S128_S16384x128_1),
    TRef.nullary φ.cst (constant S_ .f32 0x7FC00000#32),
    TRef.unary φ.cst φ.v15 (broadcastInDim S16384x128 ![] bcast_S_S16384x128),
    TRef.ternary φ.v14 φ.v13 φ.v15 φ.v16 select ]

/-- The function that reads 128 columns is those operations in order. -/
theorem take_eq (x : TRef sig ⟨S16384x448, .f32⟩) (idx : TRef sig ⟨S128, .i32⟩) (φ : fn_take.Bufs) :
    fn_take.body (F := F) x idx φ = seq (takeOps x idx φ) := rfl

/-- The operations of `takeOps` touch only the device's arrays. -/
theorem takeOps_sub (x : TRef sig ⟨S16384x448, .f32⟩) (idx : TRef sig ⟨S128, .i32⟩) (φ : fn_take.Bufs) :
    ∀ op ∈ (takeOps x idx φ : List (HloOp τ sig (Elt F))), op.bufs ⊆ tcRefs τ sig :=
  List.forall_iff_forall_mem.mp (show (takeOps x idx φ : List (HloOp τ sig (Elt F))).Forall _ from ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩)
/-- Each operation of `takeOps` determines what it writes. -/
theorem takeOps_fresh (x : TRef sig ⟨S16384x448, .f32⟩) (idx : TRef sig ⟨S128, .i32⟩) (φ : fn_take.Bufs) :
    ∀ op ∈ (takeOps x idx φ : List (HloOp τ sig (Elt F))), op.fresh = ∅ :=
  List.forall_iff_forall_mem.mp (show (takeOps x idx φ : List (HloOp τ sig (Elt F))).Forall _ from ⟨rfl, rfl, rfl, rfl, rfl, rfl, rfl, rfl, rfl, rfl, rfl, rfl, rfl, rfl, rfl, rfl, rfl, rfl, rfl, rfl, rfl, rfl, rfl⟩)
/-- The arrays a read of 128 columns writes, in order. -/
def takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref]
/-- Each operation of `takeOps` writes an array of the list beside it. -/
theorem takeOps_writes (x : TRef sig ⟨S16384x448, .f32⟩) (idx : TRef sig ⟨S128, .i32⟩) (φ : fn_take.Bufs) :
    (takeOps x idx φ : List (HloOp τ sig (Elt F))).Forall fun op => op.writes ⊆ ((takeW φ).map (Proc.devRef (τ := τ) .tc)).toFinset := by
  unfold takeOps takeW
  simp only [List.Forall]
  refine ⟨?_, ?_, ?_, ?_, ?_, ?_, ?_, ?_, ?_, ?_, ?_, ?_, ?_, ?_, ?_, ?_, ?_, ?_, ?_, ?_, ?_, ?_, ?_⟩ <;> written

/-- One read of 64 columns of the array `x` named by the vector `idx`, over the arrays `φ` of that read. -/
def take64Ops (x : TRef sig ⟨S16384x448, .f32⟩) (idx : TRef sig ⟨S64, .i32⟩) (φ : fn_take_1.Bufs) : List (HloOp τ sig (Elt F)) :=
  [ TRef.nullary φ.c (constantI S_ 32 0#32),
    TRef.unary φ.c φ.v0 (broadcastInDim S64 ![] bcast_S_S64),
    TRef.binary idx φ.v0 φ.v1 (cmpi .slt),
    TRef.nullary φ.c_0 (constantI S_ 32 448#32),
    TRef.unary φ.c_0 φ.v2 (broadcastInDim S64 ![] bcast_S_S64),
    TRef.binary idx φ.v2 φ.v3 addi,
    TRef.ternary φ.v1 φ.v3 idx φ.call0.v0 select,
    TRef.unary φ.call0.v0 φ.v5 (broadcastInDim S64x1 ![0] bcast_S64_S64x1_0),
    TRef.nullary φ.c_1 (constantI S1 32 447#32),
    TRef.nullary φ.c_2 (constantI S_ 32 0#32),
    TRef.unary φ.c_2 φ.v6 (broadcastInDim S64x1 ![] bcast_S_S64x1),
    TRef.binary φ.v5 φ.v6 φ.v7 (cmpi .sge),
    TRef.unary φ.c_1 φ.v8 (broadcastInDim S1x1 ![1] bcast_S1_S1x1_1),
    TRef.unary φ.v8 φ.v9 (broadcastInDim S64x1 ![0, 1] bcast_S1x1_S64x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S64x1_S64_d1 h_S_),
    TRef.binary x φ.v5 φ.v13 (fun x i => Host.gather gather_S16384x448_S64x1_S16384x64_0_1_n_n_1_1_163841 x i),
    TRef.unary φ.v12 φ.v14 (broadcastInDim S16384x64 ![1] bcast_S64_S16384x64_1),
    TRef.nullary φ.cst (constant S_ .f32 0x7FC00000#32),
    TRef.unary φ.cst φ.v15 (broadcastInDim S16384x64 ![] bcast_S_S16384x64),
    TRef.ternary φ.v14 φ.v13 φ.v15 φ.v16 select ]

/-- The function that reads 64 columns is those operations in order. -/
theorem take64_eq (x : TRef sig ⟨S16384x448, .f32⟩) (idx : TRef sig ⟨S64, .i32⟩) (φ : fn_take_1.Bufs) :
    fn_take_1.body (F := F) x idx φ = seq (take64Ops x idx φ) := rfl

/-- The operations of `take64Ops` touch only the device's arrays. -/
theorem take64Ops_sub (x : TRef sig ⟨S16384x448, .f32⟩) (idx : TRef sig ⟨S64, .i32⟩) (φ : fn_take_1.Bufs) :
    ∀ op ∈ (take64Ops x idx φ : List (HloOp τ sig (Elt F))), op.bufs ⊆ tcRefs τ sig :=
  List.forall_iff_forall_mem.mp (show (take64Ops x idx φ : List (HloOp τ sig (Elt F))).Forall _ from ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩)
/-- Each operation of `take64Ops` determines what it writes. -/
theorem take64Ops_fresh (x : TRef sig ⟨S16384x448, .f32⟩) (idx : TRef sig ⟨S64, .i32⟩) (φ : fn_take_1.Bufs) :
    ∀ op ∈ (take64Ops x idx φ : List (HloOp τ sig (Elt F))), op.fresh = ∅ :=
  List.forall_iff_forall_mem.mp (show (take64Ops x idx φ : List (HloOp τ sig (Elt F))).Forall _ from ⟨rfl, rfl, rfl, rfl, rfl, rfl, rfl, rfl, rfl, rfl, rfl, rfl, rfl, rfl, rfl, rfl, rfl, rfl, rfl, rfl, rfl, rfl, rfl⟩)
/-- The arrays a read of 64 columns writes, in order. -/
def take64W (φ : fn_take_1.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref]
/-- Each operation of `take64Ops` writes an array of the list beside it. -/
theorem take64Ops_writes (x : TRef sig ⟨S16384x448, .f32⟩) (idx : TRef sig ⟨S64, .i32⟩) (φ : fn_take_1.Bufs) :
    (take64Ops x idx φ : List (HloOp τ sig (Elt F))).Forall fun op => op.writes ⊆ ((take64W φ).map (Proc.devRef (τ := τ) .tc)).toFinset := by
  unfold take64Ops take64W
  simp only [List.Forall]
  refine ⟨?_, ?_, ?_, ?_, ?_, ?_, ?_, ?_, ?_, ?_, ?_, ?_, ?_, ?_, ?_, ?_, ?_, ?_, ?_, ?_, ?_, ?_, ?_⟩ <;> written

/-! ## The stretches between the reads -/

/-- The four vectors of column numbers, the zero array, and the write of the inputs into columns 0 … 127. -/
def opsInit : List (HloOp τ sig (Elt F)) :=
  [ nullary main_cst (constant S_ .f32 0x00000000#32),
    unary main_cst main_v0 (broadcastInDim S16384x448 ![] bcast_S_S16384x448 : (⟨S_, .f32⟩ : BufTy).Contents (Elt F) → (⟨S16384x448, .f32⟩ : BufTy).Contents (Elt F)),
    nullary main_v1 (iotaInDim S128 32 0),
    nullary main_v2 (iotaInDim S128 32 0),
    nullary main_c (constantI S_ 32 128#32),
    unary main_c main_v3 (broadcastInDim S128 ![] bcast_S_S128 : (⟨S_, .i32⟩ : BufTy).Contents (Elt F) → (⟨S128, .i32⟩ : BufTy).Contents (Elt F)),
    binary main_v3 main_v2 main_v4 (addi : (⟨S128, .i32⟩ : BufTy).Contents (Elt F) → (⟨S128, .i32⟩ : BufTy).Contents (Elt F) → (⟨S128, .i32⟩ : BufTy).Contents (Elt F)),
    nullary main_v5 (iotaInDim S128 32 0),
    nullary main_c_0 (constantI S_ 32 256#32),
    unary main_c_0 main_v6 (broadcastInDim S128 ![] bcast_S_S128 : (⟨S_, .i32⟩ : BufTy).Contents (Elt F) → (⟨S128, .i32⟩ : BufTy).Contents (Elt F)),
    binary main_v6 main_v5 main_v7 (addi : (⟨S128, .i32⟩ : BufTy).Contents (Elt F) → (⟨S128, .i32⟩ : BufTy).Contents (Elt F) → (⟨S128, .i32⟩ : BufTy).Contents (Elt F)),
    nullary main_v8 (iotaInDim S64 32 0),
    nullary main_c_1 (constantI S_ 32 384#32),
    unary main_c_1 main_v9 (broadcastInDim S64 ![] bcast_S_S64 : (⟨S_, .i32⟩ : BufTy).Contents (Elt F) → (⟨S64, .i32⟩ : BufTy).Contents (Elt F)),
    binary main_v9 main_v8 main_v10 (addi : (⟨S64, .i32⟩ : BufTy).Contents (Elt F) → (⟨S64, .i32⟩ : BufTy).Contents (Elt F) → (⟨S64, .i32⟩ : BufTy).Contents (Elt F)),
    nullary main_c_2 (constantI S_ 32 0#32),
    unary main_c_2 main_v11 (broadcastInDim S128 ![] bcast_S_S128 : (⟨S_, .i32⟩ : BufTy).Contents (Elt F) → (⟨S128, .i32⟩ : BufTy).Contents (Elt F)),
    binary main_v1 main_v11 main_v12 (cmpi .slt : (⟨S128, .i32⟩ : BufTy).Contents (Elt F) → (⟨S128, .i32⟩ : BufTy).Contents (Elt F) → (⟨S128, .i1⟩ : BufTy).Contents (Elt F)),
    nullary main_c_3 (constantI S_ 32 448#32),
    unary main_c_3 main_v13 (broadcastInDim S128 ![] bcast_S_S128 : (⟨S_, .i32⟩ : BufTy).Contents (Elt F) → (⟨S128, .i32⟩ : BufTy).Contents (Elt F)),
    binary main_v1 main_v13 main_v14 (addi : (⟨S128, .i32⟩ : BufTy).Contents (Elt F) → (⟨S128, .i32⟩ : BufTy).Contents (Elt F) → (⟨S128, .i32⟩ : BufTy).Contents (Elt F)),
    ternary main_v12 main_v14 main_v1 main_v15 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v15 main_v16 (broadcastInDim S128x1 ![0] bcast_S128_S128x1_0 : (⟨S128, .i32⟩ : BufTy).Contents (Elt F) → (⟨S128x1, .i32⟩ : BufTy).Contents (Elt F)),
    ternary main_v0 main_v16 main_arg0 main_v17 ((fun x i u => Host.scatter scatter_S16384x448_S128x1_S16384x128_0_1_1_1 (fun _ b => b) x i u) : (⟨S16384x448, .f32⟩ : BufTy).Contents (Elt F) → (⟨S128x1, .i32⟩ : BufTy).Contents (Elt F) → (⟨S16384x128, .f32⟩ : BufTy).Contents (Elt F) → (⟨S16384x448, .f32⟩ : BufTy).Contents (Elt F)) ]

/-- The operations of `opsInit` touch only the device's arrays. -/
theorem opsInit_sub : ∀ op ∈ (opsInit : List (HloOp τ sig (Elt F))), op.bufs ⊆ tcRefs τ sig :=
  List.forall_iff_forall_mem.mp (show (opsInit : List (HloOp τ sig (Elt F))).Forall _ from ⟨nullary_bufs_sub .., unary_bufs_sub .., nullary_bufs_sub .., nullary_bufs_sub .., nullary_bufs_sub .., unary_bufs_sub .., binary_bufs_sub .., nullary_bufs_sub .., nullary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩)
/-- Each operation of `opsInit` determines what it writes. -/
theorem opsInit_fresh : ∀ op ∈ (opsInit : List (HloOp τ sig (Elt F))), op.fresh = ∅ :=
  List.forall_iff_forall_mem.mp (show (opsInit : List (HloOp τ sig (Elt F))).Forall _ from ⟨rfl, rfl, rfl, rfl, rfl, rfl, rfl, rfl, rfl, rfl, rfl, rfl, rfl, rfl, rfl, rfl, rfl, rfl, rfl, rfl, rfl, rfl, rfl, rfl⟩)
/-- The buffers these operations write, in order. -/
def opsInit_W : List (Ref sig .tc) :=
  [main_cst, main_v0, main_v1, main_v2, main_c, main_v3, main_v4, main_v5, main_c_0, main_v6, main_v7, main_v8, main_c_1, main_v9, main_v10, main_c_2, main_v11, main_v12, main_c_3, main_v13, main_v14, main_v15, main_v16, main_v17]
/-- Each operation of `opsInit` writes an array of the list beside it. -/
theorem opsInit_writes : (opsInit : List (HloOp τ sig (Elt F))).Forall fun op => op.writes ⊆ ((opsInit_W).map (Proc.devRef (τ := τ) .tc)).toFinset := by
  unfold opsInit opsInit_W
  simp only [List.Forall]
  refine ⟨?_, ?_, ?_, ?_, ?_, ?_, ?_, ?_, ?_, ?_, ?_, ?_, ?_, ?_, ?_, ?_, ?_, ?_, ?_, ?_, ?_, ?_, ?_, ?_⟩ <;> written

/-- The first layer over the columns read: masked weights, transpose, product, bias, sum, the larger of it and zero. -/
def opsLayer1 : List (HloOp τ sig (Elt F)) :=
  [ binary main_arg1 main_arg3 main_v19 (mulf : (⟨S128x128, .f32⟩ : BufTy).Contents (Elt F) → (⟨S128x128, .f32⟩ : BufTy).Contents (Elt F) → (⟨S128x128, .f32⟩ : BufTy).Contents (Elt F)),
    unary main_v19 main_v20 ((transpose S128x128 [1, 0] · transposes_S128x128_S128x128_1_0) : (⟨S128x128, .f32⟩ : BufTy).Contents (Elt F) → (⟨S128x128, .f32⟩ : BufTy).Contents (Elt F)),
    binary main_v18 main_v20 main_v21 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg2 main_v22 (broadcastInDim S1x128 ![1] bcast_S128_S1x128_1 : (⟨S128, .f32⟩ : BufTy).Contents (Elt F) → (⟨S1x128, .f32⟩ : BufTy).Contents (Elt F)),
    unary main_v22 main_v23 (broadcastInDim S16384x128 ![0, 1] bcast_S1x128_S16384x128_0_1 : (⟨S1x128, .f32⟩ : BufTy).Contents (Elt F) → (⟨S16384x128, .f32⟩ : BufTy).Contents (Elt F)),
    binary main_v21 main_v23 main_v24 (addf : (⟨S16384x128, .f32⟩ : BufTy).Contents (Elt F) → (⟨S16384x128, .f32⟩ : BufTy).Contents (Elt F) → (⟨S16384x128, .f32⟩ : BufTy).Contents (Elt F)),
    TRef.nullary main_call1.cst (constant S_ .f32 0x00000000#32),
    TRef.unary main_call1.cst main_call1.v0 (broadcastInDim S16384x128 ![] bcast_S_S16384x128),
    TRef.binary (.of main_v24) main_call1.v0 main_call1.v1 maximumf ]

/-- The operations of `opsLayer1` touch only the device's arrays. -/
theorem opsLayer1_sub : ∀ op ∈ (opsLayer1 : List (HloOp τ sig (Elt F))), op.bufs ⊆ tcRefs τ sig :=
  List.forall_iff_forall_mem.mp (show (opsLayer1 : List (HloOp τ sig (Elt F))).Forall _ from ⟨binary_bufs_sub .., unary_bufs_sub .., binary_bufs_sub .., unary_bufs_sub .., unary_bufs_sub .., binary_bufs_sub .., nullary_bufs_sub .., unary_bufs_sub .., binary_bufs_sub ..⟩)
/-- Each operation of `opsLayer1` determines what it writes. -/
theorem opsLayer1_fresh : ∀ op ∈ (opsLayer1 : List (HloOp τ sig (Elt F))), op.fresh = ∅ :=
  List.forall_iff_forall_mem.mp (show (opsLayer1 : List (HloOp τ sig (Elt F))).Forall _ from ⟨rfl, rfl, rfl, rfl, rfl, rfl, rfl, rfl, rfl⟩)
/-- The buffers these operations write, in order. -/
def opsLayer1_W : List (Ref sig .tc) :=
  [main_v19, main_v20, main_v21, main_v22, main_v23, main_v24, main_call1.cst.ref, main_call1.v0.ref, main_call1.v1.ref]
/-- Each operation of `opsLayer1` writes an array of the list beside it. -/
theorem opsLayer1_writes : (opsLayer1 : List (HloOp τ sig (Elt F))).Forall fun op => op.writes ⊆ ((opsLayer1_W).map (Proc.devRef (τ := τ) .tc)).toFinset := by
  unfold opsLayer1 opsLayer1_W
  simp only [List.Forall]
  refine ⟨?_, ?_, ?_, ?_, ?_, ?_, ?_, ?_, ?_⟩ <;> written

/-- The write of the first layer's output into columns 128 … 255. -/
def opsWrite1 : List (HloOp τ sig (Elt F)) :=
  [ nullary main_c_4 (constantI S_ 32 0#32),
    unary main_c_4 main_v26 (broadcastInDim S128 ![] bcast_S_S128 : (⟨S_, .i32⟩ : BufTy).Contents (Elt F) → (⟨S128, .i32⟩ : BufTy).Contents (Elt F)),
    binary main_v4 main_v26 main_v27 (cmpi .slt : (⟨S128, .i32⟩ : BufTy).Contents (Elt F) → (⟨S128, .i32⟩ : BufTy).Contents (Elt F) → (⟨S128, .i1⟩ : BufTy).Contents (Elt F)),
    nullary main_c_5 (constantI S_ 32 448#32),
    unary main_c_5 main_v28 (broadcastInDim S128 ![] bcast_S_S128 : (⟨S_, .i32⟩ : BufTy).Contents (Elt F) → (⟨S128, .i32⟩ : BufTy).Contents (Elt F)),
    binary main_v4 main_v28 main_v29 (addi : (⟨S128, .i32⟩ : BufTy).Contents (Elt F) → (⟨S128, .i32⟩ : BufTy).Contents (Elt F) → (⟨S128, .i32⟩ : BufTy).Contents (Elt F)),
    ternary main_v27 main_v29 main_v4 main_v30 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v30 main_v31 (broadcastInDim S128x1 ![0] bcast_S128_S128x1_0 : (⟨S128, .i32⟩ : BufTy).Contents (Elt F) → (⟨S128x1, .i32⟩ : BufTy).Contents (Elt F)),
    ternary main_v17 main_v31 main_v25 main_v32 ((fun x i u => Host.scatter scatter_S16384x448_S128x1_S16384x128_0_1_1_1 (fun _ b => b) x i u) : (⟨S16384x448, .f32⟩ : BufTy).Contents (Elt F) → (⟨S128x1, .i32⟩ : BufTy).Contents (Elt F) → (⟨S16384x128, .f32⟩ : BufTy).Contents (Elt F) → (⟨S16384x448, .f32⟩ : BufTy).Contents (Elt F)) ]

/-- The operations of `opsWrite1` touch only the device's arrays. -/
theorem opsWrite1_sub : ∀ op ∈ (opsWrite1 : List (HloOp τ sig (Elt F))), op.bufs ⊆ tcRefs τ sig :=
  List.forall_iff_forall_mem.mp (show (opsWrite1 : List (HloOp τ sig (Elt F))).Forall _ from ⟨nullary_bufs_sub .., unary_bufs_sub .., binary_bufs_sub .., nullary_bufs_sub .., unary_bufs_sub .., binary_bufs_sub .., ternary_bufs_sub .., unary_bufs_sub .., ternary_bufs_sub ..⟩)
/-- Each operation of `opsWrite1` determines what it writes. -/
theorem opsWrite1_fresh : ∀ op ∈ (opsWrite1 : List (HloOp τ sig (Elt F))), op.fresh = ∅ :=
  List.forall_iff_forall_mem.mp (show (opsWrite1 : List (HloOp τ sig (Elt F))).Forall _ from ⟨rfl, rfl, rfl, rfl, rfl, rfl, rfl, rfl, rfl⟩)
/-- The buffers these operations write, in order. -/
def opsWrite1_W : List (Ref sig .tc) :=
  [main_c_4, main_v26, main_v27, main_c_5, main_v28, main_v29, main_v30, main_v31, main_v32]
/-- Each operation of `opsWrite1` writes an array of the list beside it. -/
theorem opsWrite1_writes : (opsWrite1 : List (HloOp τ sig (Elt F))).Forall fun op => op.writes ⊆ ((opsWrite1_W).map (Proc.devRef (τ := τ) .tc)).toFinset := by
  unfold opsWrite1 opsWrite1_W
  simp only [List.Forall]
  refine ⟨?_, ?_, ?_, ?_, ?_, ?_, ?_, ?_, ?_⟩ <;> written

/-- The second layer over the columns read. -/
def opsLayer2 : List (HloOp τ sig (Elt F)) :=
  [ binary main_arg4 main_arg6 main_v34 (mulf : (⟨S128x128, .f32⟩ : BufTy).Contents (Elt F) → (⟨S128x128, .f32⟩ : BufTy).Contents (Elt F) → (⟨S128x128, .f32⟩ : BufTy).Contents (Elt F)),
    unary main_v34 main_v35 ((transpose S128x128 [1, 0] · transposes_S128x128_S128x128_1_0) : (⟨S128x128, .f32⟩ : BufTy).Contents (Elt F) → (⟨S128x128, .f32⟩ : BufTy).Contents (Elt F)),
    binary main_v33 main_v35 main_v36 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg5 main_v37 (broadcastInDim S1x128 ![1] bcast_S128_S1x128_1 : (⟨S128, .f32⟩ : BufTy).Contents (Elt F) → (⟨S1x128, .f32⟩ : BufTy).Contents (Elt F)),
    unary main_v37 main_v38 (broadcastInDim S16384x128 ![0, 1] bcast_S1x128_S16384x128_0_1 : (⟨S1x128, .f32⟩ : BufTy).Contents (Elt F) → (⟨S16384x128, .f32⟩ : BufTy).Contents (Elt F)),
    binary main_v36 main_v38 main_v39 (addf : (⟨S16384x128, .f32⟩ : BufTy).Contents (Elt F) → (⟨S16384x128, .f32⟩ : BufTy).Contents (Elt F) → (⟨S16384x128, .f32⟩ : BufTy).Contents (Elt F)),
    TRef.nullary main_call3.cst (constant S_ .f32 0x00000000#32),
    TRef.unary main_call3.cst main_call3.v0 (broadcastInDim S16384x128 ![] bcast_S_S16384x128),
    TRef.binary (.of main_v39) main_call3.v0 main_call3.v1 maximumf ]

/-- The operations of `opsLayer2` touch only the device's arrays. -/
theorem opsLayer2_sub : ∀ op ∈ (opsLayer2 : List (HloOp τ sig (Elt F))), op.bufs ⊆ tcRefs τ sig :=
  List.forall_iff_forall_mem.mp (show (opsLayer2 : List (HloOp τ sig (Elt F))).Forall _ from ⟨binary_bufs_sub .., unary_bufs_sub .., binary_bufs_sub .., unary_bufs_sub .., unary_bufs_sub .., binary_bufs_sub .., nullary_bufs_sub .., unary_bufs_sub .., binary_bufs_sub ..⟩)
/-- Each operation of `opsLayer2` determines what it writes. -/
theorem opsLayer2_fresh : ∀ op ∈ (opsLayer2 : List (HloOp τ sig (Elt F))), op.fresh = ∅ :=
  List.forall_iff_forall_mem.mp (show (opsLayer2 : List (HloOp τ sig (Elt F))).Forall _ from ⟨rfl, rfl, rfl, rfl, rfl, rfl, rfl, rfl, rfl⟩)
/-- The buffers these operations write, in order. -/
def opsLayer2_W : List (Ref sig .tc) :=
  [main_v34, main_v35, main_v36, main_v37, main_v38, main_v39, main_call3.cst.ref, main_call3.v0.ref, main_call3.v1.ref]
/-- Each operation of `opsLayer2` writes an array of the list beside it. -/
theorem opsLayer2_writes : (opsLayer2 : List (HloOp τ sig (Elt F))).Forall fun op => op.writes ⊆ ((opsLayer2_W).map (Proc.devRef (τ := τ) .tc)).toFinset := by
  unfold opsLayer2 opsLayer2_W
  simp only [List.Forall]
  refine ⟨?_, ?_, ?_, ?_, ?_, ?_, ?_, ?_, ?_⟩ <;> written

/-- The write of the second layer's output into columns 256 … 383. -/
def opsWrite2 : List (HloOp τ sig (Elt F)) :=
  [ nullary main_c_6 (constantI S_ 32 0#32),
    unary main_c_6 main_v41 (broadcastInDim S128 ![] bcast_S_S128 : (⟨S_, .i32⟩ : BufTy).Contents (Elt F) → (⟨S128, .i32⟩ : BufTy).Contents (Elt F)),
    binary main_v7 main_v41 main_v42 (cmpi .slt : (⟨S128, .i32⟩ : BufTy).Contents (Elt F) → (⟨S128, .i32⟩ : BufTy).Contents (Elt F) → (⟨S128, .i1⟩ : BufTy).Contents (Elt F)),
    nullary main_c_7 (constantI S_ 32 448#32),
    unary main_c_7 main_v43 (broadcastInDim S128 ![] bcast_S_S128 : (⟨S_, .i32⟩ : BufTy).Contents (Elt F) → (⟨S128, .i32⟩ : BufTy).Contents (Elt F)),
    binary main_v7 main_v43 main_v44 (addi : (⟨S128, .i32⟩ : BufTy).Contents (Elt F) → (⟨S128, .i32⟩ : BufTy).Contents (Elt F) → (⟨S128, .i32⟩ : BufTy).Contents (Elt F)),
    ternary main_v42 main_v44 main_v7 main_v45 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v45 main_v46 (broadcastInDim S128x1 ![0] bcast_S128_S128x1_0 : (⟨S128, .i32⟩ : BufTy).Contents (Elt F) → (⟨S128x1, .i32⟩ : BufTy).Contents (Elt F)),
    ternary main_v32 main_v46 main_v40 main_v47 ((fun x i u => Host.scatter scatter_S16384x448_S128x1_S16384x128_0_1_1_1 (fun _ b => b) x i u) : (⟨S16384x448, .f32⟩ : BufTy).Contents (Elt F) → (⟨S128x1, .i32⟩ : BufTy).Contents (Elt F) → (⟨S16384x128, .f32⟩ : BufTy).Contents (Elt F) → (⟨S16384x448, .f32⟩ : BufTy).Contents (Elt F)) ]

/-- The operations of `opsWrite2` touch only the device's arrays. -/
theorem opsWrite2_sub : ∀ op ∈ (opsWrite2 : List (HloOp τ sig (Elt F))), op.bufs ⊆ tcRefs τ sig :=
  List.forall_iff_forall_mem.mp (show (opsWrite2 : List (HloOp τ sig (Elt F))).Forall _ from ⟨nullary_bufs_sub .., unary_bufs_sub .., binary_bufs_sub .., nullary_bufs_sub .., unary_bufs_sub .., binary_bufs_sub .., ternary_bufs_sub .., unary_bufs_sub .., ternary_bufs_sub ..⟩)
/-- Each operation of `opsWrite2` determines what it writes. -/
theorem opsWrite2_fresh : ∀ op ∈ (opsWrite2 : List (HloOp τ sig (Elt F))), op.fresh = ∅ :=
  List.forall_iff_forall_mem.mp (show (opsWrite2 : List (HloOp τ sig (Elt F))).Forall _ from ⟨rfl, rfl, rfl, rfl, rfl, rfl, rfl, rfl, rfl⟩)
/-- The buffers these operations write, in order. -/
def opsWrite2_W : List (Ref sig .tc) :=
  [main_c_6, main_v41, main_v42, main_c_7, main_v43, main_v44, main_v45, main_v46, main_v47]
/-- Each operation of `opsWrite2` writes an array of the list beside it. -/
theorem opsWrite2_writes : (opsWrite2 : List (HloOp τ sig (Elt F))).Forall fun op => op.writes ⊆ ((opsWrite2_W).map (Proc.devRef (τ := τ) .tc)).toFinset := by
  unfold opsWrite2 opsWrite2_W
  simp only [List.Forall]
  refine ⟨?_, ?_, ?_, ?_, ?_, ?_, ?_, ?_, ?_⟩ <;> written

/-- The last layer's masked weights. -/
def opsMask3 : List (HloOp τ sig (Elt F)) :=
  [ binary main_arg7 main_arg9 main_v49 (mulf : (⟨S64x128, .f32⟩ : BufTy).Contents (Elt F) → (⟨S64x128, .f32⟩ : BufTy).Contents (Elt F) → (⟨S64x128, .f32⟩ : BufTy).Contents (Elt F)) ]

/-- The operations of `opsMask3` touch only the device's arrays. -/
theorem opsMask3_sub : ∀ op ∈ (opsMask3 : List (HloOp τ sig (Elt F))), op.bufs ⊆ tcRefs τ sig :=
  List.forall_iff_forall_mem.mp (show (opsMask3 : List (HloOp τ sig (Elt F))).Forall _ from binary_bufs_sub ..)
/-- Each operation of `opsMask3` determines what it writes. -/
theorem opsMask3_fresh : ∀ op ∈ (opsMask3 : List (HloOp τ sig (Elt F))), op.fresh = ∅ :=
  List.forall_iff_forall_mem.mp (show (opsMask3 : List (HloOp τ sig (Elt F))).Forall _ from rfl)
/-- The buffers these operations write, in order. -/
def opsMask3_W : List (Ref sig .tc) :=
  [main_v49]
/-- Each operation of `opsMask3` writes an array of the list beside it. -/
theorem opsMask3_writes : (opsMask3 : List (HloOp τ sig (Elt F))).Forall fun op => op.writes ⊆ ((opsMask3_W).map (Proc.devRef (τ := τ) .tc)).toFinset := by
  unfold opsMask3 opsMask3_W
  simp only [List.Forall]
  written

/-- The last layer over the columns read, from its masked weights on. -/
def opsLayer3 : List (HloOp τ sig (Elt F)) :=
  [ unary main_v49 main_v50 ((transpose S128x64 [1, 0] · transposes_S64x128_S128x64_1_0) : (⟨S64x128, .f32⟩ : BufTy).Contents (Elt F) → (⟨S128x64, .f32⟩ : BufTy).Contents (Elt F)),
    binary main_v48 main_v50 main_v51 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg8 main_v52 (broadcastInDim S1x64 ![1] bcast_S64_S1x64_1 : (⟨S64, .f32⟩ : BufTy).Contents (Elt F) → (⟨S1x64, .f32⟩ : BufTy).Contents (Elt F)),
    unary main_v52 main_v53 (broadcastInDim S16384x64 ![0, 1] bcast_S1x64_S16384x64_0_1 : (⟨S1x64, .f32⟩ : BufTy).Contents (Elt F) → (⟨S16384x64, .f32⟩ : BufTy).Contents (Elt F)),
    binary main_v51 main_v53 main_v54 (addf : (⟨S16384x64, .f32⟩ : BufTy).Contents (Elt F) → (⟨S16384x64, .f32⟩ : BufTy).Contents (Elt F) → (⟨S16384x64, .f32⟩ : BufTy).Contents (Elt F)),
    TRef.nullary main_call5.cst (constant S_ .f32 0x00000000#32),
    TRef.unary main_call5.cst main_call5.v0 (broadcastInDim S16384x64 ![] bcast_S_S16384x64),
    TRef.binary (.of main_v54) main_call5.v0 main_call5.v1 maximumf ]

/-- The operations of `opsLayer3` touch only the device's arrays. -/
theorem opsLayer3_sub : ∀ op ∈ (opsLayer3 : List (HloOp τ sig (Elt F))), op.bufs ⊆ tcRefs τ sig :=
  List.forall_iff_forall_mem.mp (show (opsLayer3 : List (HloOp τ sig (Elt F))).Forall _ from ⟨unary_bufs_sub .., binary_bufs_sub .., unary_bufs_sub .., unary_bufs_sub .., binary_bufs_sub .., nullary_bufs_sub .., unary_bufs_sub .., binary_bufs_sub ..⟩)
/-- Each operation of `opsLayer3` determines what it writes. -/
theorem opsLayer3_fresh : ∀ op ∈ (opsLayer3 : List (HloOp τ sig (Elt F))), op.fresh = ∅ :=
  List.forall_iff_forall_mem.mp (show (opsLayer3 : List (HloOp τ sig (Elt F))).Forall _ from ⟨rfl, rfl, rfl, rfl, rfl, rfl, rfl, rfl⟩)
/-- The buffers these operations write, in order. -/
def opsLayer3_W : List (Ref sig .tc) :=
  [main_v50, main_v51, main_v52, main_v53, main_v54, main_call5.cst.ref, main_call5.v0.ref, main_call5.v1.ref]
/-- Each operation of `opsLayer3` writes an array of the list beside it. -/
theorem opsLayer3_writes : (opsLayer3 : List (HloOp τ sig (Elt F))).Forall fun op => op.writes ⊆ ((opsLayer3_W).map (Proc.devRef (τ := τ) .tc)).toFinset := by
  unfold opsLayer3 opsLayer3_W
  simp only [List.Forall]
  refine ⟨?_, ?_, ?_, ?_, ?_, ?_, ?_, ?_⟩ <;> written

/-- The write of the last layer's output into columns 384 … 447. -/
def opsWrite3 : List (HloOp τ sig (Elt F)) :=
  [ nullary main_c_8 (constantI S_ 32 0#32),
    unary main_c_8 main_v56 (broadcastInDim S64 ![] bcast_S_S64 : (⟨S_, .i32⟩ : BufTy).Contents (Elt F) → (⟨S64, .i32⟩ : BufTy).Contents (Elt F)),
    binary main_v10 main_v56 main_v57 (cmpi .slt : (⟨S64, .i32⟩ : BufTy).Contents (Elt F) → (⟨S64, .i32⟩ : BufTy).Contents (Elt F) → (⟨S64, .i1⟩ : BufTy).Contents (Elt F)),
    nullary main_c_9 (constantI S_ 32 448#32),
    unary main_c_9 main_v58 (broadcastInDim S64 ![] bcast_S_S64 : (⟨S_, .i32⟩ : BufTy).Contents (Elt F) → (⟨S64, .i32⟩ : BufTy).Contents (Elt F)),
    binary main_v10 main_v58 main_v59 (addi : (⟨S64, .i32⟩ : BufTy).Contents (Elt F) → (⟨S64, .i32⟩ : BufTy).Contents (Elt F) → (⟨S64, .i32⟩ : BufTy).Contents (Elt F)),
    ternary main_v57 main_v59 main_v10 main_v60 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v60 main_v61 (broadcastInDim S64x1 ![0] bcast_S64_S64x1_0 : (⟨S64, .i32⟩ : BufTy).Contents (Elt F) → (⟨S64x1, .i32⟩ : BufTy).Contents (Elt F)),
    ternary main_v47 main_v61 main_v55 main_v62 ((fun x i u => Host.scatter scatter_S16384x448_S64x1_S16384x64_0_1_1_1 (fun _ b => b) x i u) : (⟨S16384x448, .f32⟩ : BufTy).Contents (Elt F) → (⟨S64x1, .i32⟩ : BufTy).Contents (Elt F) → (⟨S16384x64, .f32⟩ : BufTy).Contents (Elt F) → (⟨S16384x448, .f32⟩ : BufTy).Contents (Elt F)) ]

/-- The operations of `opsWrite3` touch only the device's arrays. -/
theorem opsWrite3_sub : ∀ op ∈ (opsWrite3 : List (HloOp τ sig (Elt F))), op.bufs ⊆ tcRefs τ sig :=
  List.forall_iff_forall_mem.mp (show (opsWrite3 : List (HloOp τ sig (Elt F))).Forall _ from ⟨nullary_bufs_sub .., unary_bufs_sub .., binary_bufs_sub .., nullary_bufs_sub .., unary_bufs_sub .., binary_bufs_sub .., ternary_bufs_sub .., unary_bufs_sub .., ternary_bufs_sub ..⟩)
/-- Each operation of `opsWrite3` determines what it writes. -/
theorem opsWrite3_fresh : ∀ op ∈ (opsWrite3 : List (HloOp τ sig (Elt F))), op.fresh = ∅ :=
  List.forall_iff_forall_mem.mp (show (opsWrite3 : List (HloOp τ sig (Elt F))).Forall _ from ⟨rfl, rfl, rfl, rfl, rfl, rfl, rfl, rfl, rfl⟩)
/-- The buffers these operations write, in order. -/
def opsWrite3_W : List (Ref sig .tc) :=
  [main_c_8, main_v56, main_v57, main_c_9, main_v58, main_v59, main_v60, main_v61, main_v62]
/-- Each operation of `opsWrite3` writes an array of the list beside it. -/
theorem opsWrite3_writes : (opsWrite3 : List (HloOp τ sig (Elt F))).Forall fun op => op.writes ⊆ ((opsWrite3_W).map (Proc.devRef (τ := τ) .tc)).toFinset := by
  unfold opsWrite3 opsWrite3_W
  simp only [List.Forall]
  refine ⟨?_, ?_, ?_, ?_, ?_, ?_, ?_, ?_, ?_⟩ <;> written

/-! ## The reads, at the arrays of their occurrences -/

/-- The read of columns 0 … 127 after the inputs are written. -/
def opsRead0 : List (HloOp τ sig (Elt F)) := takeOps (.of main_v17) (.of main_v1) main_call0
/-- The read of columns 128 … 255 after the first layer's output is written. -/
def opsRead1 : List (HloOp τ sig (Elt F)) := takeOps (.of main_v32) (.of main_v4) main_call2
/-- The read of columns 256 … 383 after the second layer's output is written. -/
def opsRead2 : List (HloOp τ sig (Elt F)) := takeOps (.of main_v47) (.of main_v7) main_call4
/-- The read of columns 384 … 447 after the last layer's output is written. -/
def opsRead3 : List (HloOp τ sig (Elt F)) := take64Ops (.of main_v62) (.of main_v10) main_call6

/-! ## The whole program -/

/-- The operations up to the last layer's masked weights. -/
def part0 : List (HloOp τ sig (Elt F)) :=
  opsInit ++ (opsRead0 ++ (opsLayer1 ++ (opsWrite1 ++ (opsRead1 ++ (opsLayer2 ++ (opsWrite2 ++ (opsRead2 ++ opsMask3)))))))

/-- The operations after them. -/
def part1 : List (HloOp τ sig (Elt F)) := opsLayer3 ++ (opsWrite3 ++ opsRead3)

/-- All the program's operations, in order. -/
def ops : List (HloOp τ sig (Elt F)) := part0 ++ part1

set_option maxRecDepth 100000 in
set_option maxHeartbeats 4000000 in
/-- The program's first part is its operations run in order: both sides unfold to the same chain of steps. -/
theorem main_part0_eq (c : Dev nD) : main_part0 (F := F) c = seq part0 := by chain_rfl

set_option maxRecDepth 100000 in
set_option maxHeartbeats 4000000 in
/-- So is its second part. -/
theorem main_part1_eq (c : Dev nD) : main_part1 (F := F) c = seq part1 := by chain_rfl

/-- The program is its operations run in order. -/
theorem main_eq (c : Dev nD) : main (F := F) c = seq ops := by
  rw [ops, seq_append, ← main_part0_eq c, ← main_part1_eq c]
  rfl

/-- Two stretches that touch only the device's arrays do so together. -/
theorem sub_append {l₁ l₂ : List (HloOp τ sig (Elt F))} (h₁ : ∀ op ∈ l₁, op.bufs ⊆ tcRefs τ sig) (h₂ : ∀ op ∈ l₂, op.bufs ⊆ tcRefs τ sig) :
    ∀ op ∈ l₁ ++ l₂, op.bufs ⊆ tcRefs τ sig :=
  fun op h => (List.mem_append.mp h).elim (h₁ op) (h₂ op)

/-- Two stretches whose operations determine what they write do so together. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

/-- Every operation of the program touches only the device's arrays. -/
theorem ops_sub : (ops : List (HloOp τ sig (Elt F))).Forall fun op => op.bufs ⊆ tcRefs τ sig :=
  List.forall_iff_forall_mem.mpr
    (sub_append
      (sub_append opsInit_sub (sub_append (takeOps_sub _ _ _) (sub_append opsLayer1_sub (sub_append opsWrite1_sub
        (sub_append (takeOps_sub _ _ _) (sub_append opsLayer2_sub (sub_append opsWrite2_sub
          (sub_append (takeOps_sub _ _ _) opsMask3_sub))))))))
      (sub_append opsLayer3_sub (sub_append opsWrite3_sub (take64Ops_sub _ _ _))))

/-- Every operation of the program determines what it writes. -/
theorem ops_fresh : ∀ op ∈ (ops : List (HloOp τ sig (Elt F))), op.fresh = ∅ :=
  fresh_append
    (fresh_append opsInit_fresh (fresh_append (takeOps_fresh _ _ _) (fresh_append opsLayer1_fresh (fresh_append opsWrite1_fresh
      (fresh_append (takeOps_fresh _ _ _) (fresh_append opsLayer2_fresh (fresh_append opsWrite2_fresh
        (fresh_append (takeOps_fresh _ _ _) opsMask3_fresh))))))))
    (fresh_append opsLayer3_fresh (fresh_append opsWrite3_fresh (take64Ops_fresh _ _ _)))

/-- No array of the program is scoped to a region. -/
theorem scopedRefs_eq : (Finset.univ.filter fun b : Ref sig .tc => b.isScoped) = ∅ := by decide
/-- Nor is any semaphore. -/
theorem scopedSems_eq : (Finset.univ.filter fun sm : SemLoc sig => sm.isScoped .tc) = ∅ := by decide

end Cert.ReferenceIdeal.Run

end
-- ==== Proof.RefRun1.lean ====
/-
  What each stretch of the reference program leaves in the arrays later stretches read.

  For any contents `V` of the device's arrays before a stretch, the array the stretch is there to produce holds,
  after it, the named function of the contents of the arrays the stretch reads: a read of a column range is
  `readCols128` / `readCols64` of the activations array and the vector of column numbers, a layer is `dense128` of the
  columns read, the weights, the mask and the bias, a write is `writeCols128` / `writeCols64`. Each is the stretch's
  operations composed in order, which is how those functions are defined. An array a stretch does not write keeps its
  contents through it.
-/
import proofs.«173291_g58299886076360_cont_9to1_m_691_15_alg».proof.Proof.RefRun0

noncomputable section

namespace Cert.ReferenceIdeal.Run

open Cert.ReferenceIdeal Idealize.ShloMosaic Idealize.ShloMosaic.TcCoe Idealize.SL.Sem Idealize.ShloMosaic.StableHlo
open Cert.ReferenceIdeal.Facts₀

variable {F : FTy → Type} [FloatOps F]

open Cert.ReferenceIdeal.Term

-- the gathers, scatters and folds stay closed: the equations below never look inside them
attribute [local irreducible] Host.scatter Host.gather Host.reduce

/-! ## The column vectors and the first write -/

set_option maxRecDepth 8192 in
set_option maxHeartbeats 1000000 in
/-- After the first stretch the activations array is the zero array with the inputs written into columns 0 … 127. -/
theorem init_acts (V : Valuation τ sig (Elt F)) :
    after opsInit V (no_index (Proc.devRef .tc main_v17))
      = acts0 (V (Proc.devRef .tc main_arg0)) := by
  simp only [opsInit]
  after_results_simp
  rfl

set_option maxRecDepth 8192 in
set_option maxHeartbeats 1000000 in
/-- The vector of the columns 0 … 127. -/
theorem init_colsIn (V : Valuation τ sig (Elt F)) :
    after opsInit V (no_index (Proc.devRef .tc main_v1))
      = (colsIn : IVec S128 32) := by
  simp only [opsInit]
  after_results_simp
  rfl

set_option maxRecDepth 8192 in
set_option maxHeartbeats 1000000 in
/-- The vector of the columns 128 … 255. -/
theorem init_colsH1 (V : Valuation τ sig (Elt F)) :
    after opsInit V (no_index (Proc.devRef .tc main_v4))
      = (colsH1 : IVec S128 32) := by
  simp only [opsInit]
  after_results_simp
  rfl

set_option maxRecDepth 8192 in
set_option maxHeartbeats 1000000 in
/-- The vector of the columns 256 … 383. -/
theorem init_colsH2 (V : Valuation τ sig (Elt F)) :
    after opsInit V (no_index (Proc.devRef .tc main_v7))
      = (colsH2 : IVec S128 32) := by
  simp only [opsInit]
  after_results_simp
  rfl

set_option maxRecDepth 8192 in
set_option maxHeartbeats 1000000 in
/-- The vector of the columns 384 … 447. -/
theorem init_colsOut (V : Valuation τ sig (Elt F)) :
    after opsInit V (no_index (Proc.devRef .tc main_v10))
      = (colsOut : IVec S64 32) := by
  simp only [opsInit]
  after_results_simp
  rfl

/-- The first stretch leaves every array it does not write. -/
theorem opsInit_keep (V : Valuation τ sig (Elt F)) (r : Ref sig .tc) (h : r ∉ opsInit_W) :
    after opsInit V (no_index (Proc.devRef .tc r)) = V (Proc.devRef .tc r) :=
  after_of_writes_sub opsInit V opsInit_writes h

/-! ## The first layer -/

set_option maxRecDepth 8192 in
set_option maxHeartbeats 1000000 in
/-- The read of columns 0 … 127: the named read of the activations array at that vector. -/
theorem read0_val (V : Valuation τ sig (Elt F)) :
    after opsRead0 V (no_index (Proc.devRef .tc main_v18))
      = readCols128 (V (Proc.devRef .tc main_v17)) (V (Proc.devRef .tc main_v1)) := by
  simp only [opsRead0, takeOps]
  after_results_simp
  rfl

/-- That read leaves every array it does not write. -/
theorem opsRead0_keep (V : Valuation τ sig (Elt F)) (r : Ref sig .tc) (h : r ∉ takeW main_call0) :
    after opsRead0 V (no_index (Proc.devRef .tc r)) = V (Proc.devRef .tc r) :=
  after_of_writes_sub opsRead0 V (takeOps_writes _ _ _) h

set_option maxRecDepth 8192 in
set_option maxHeartbeats 1000000 in
/-- The first layer of the columns read, with the first layer's weights, mask and bias. -/
theorem layer1_val (V : Valuation τ sig (Elt F)) :
    after opsLayer1 V (no_index (Proc.devRef .tc main_v25))
      = dense128 (V (Proc.devRef .tc main_v18)) (V (Proc.devRef .tc main_arg1)) (V (Proc.devRef .tc main_arg3)) (V (Proc.devRef .tc main_arg2)) := by
  simp only [opsLayer1]
  after_results_simp
  rfl

/-- The first layer leaves every array it does not write. -/
theorem opsLayer1_keep (V : Valuation τ sig (Elt F)) (r : Ref sig .tc) (h : r ∉ opsLayer1_W) :
    after opsLayer1 V (no_index (Proc.devRef .tc r)) = V (Proc.devRef .tc r) :=
  after_of_writes_sub opsLayer1 V opsLayer1_writes h

set_option maxRecDepth 8192 in
set_option maxHeartbeats 1000000 in
/-- The first layer's output written into columns 128 … 255. -/
theorem write1_val (V : Valuation τ sig (Elt F)) :
    after opsWrite1 V (no_index (Proc.devRef .tc main_v32))
      = writeCols128 (V (Proc.devRef .tc main_v17)) (V (Proc.devRef .tc main_v4)) (V (Proc.devRef .tc main_v25)) := by
  simp only [opsWrite1]
  after_results_simp
  rfl

/-- That write leaves every array it does not write. -/
theorem opsWrite1_keep (V : Valuation τ sig (Elt F)) (r : Ref sig .tc) (h : r ∉ opsWrite1_W) :
    after opsWrite1 V (no_index (Proc.devRef .tc r)) = V (Proc.devRef .tc r) :=
  after_of_writes_sub opsWrite1 V opsWrite1_writes h

/-! ## The second layer -/

set_option maxRecDepth 8192 in
set_option maxHeartbeats 1000000 in
/-- The read of columns 128 … 255. -/
theorem read1_val (V : Valuation τ sig (Elt F)) :
    after opsRead1 V (no_index (Proc.devRef .tc main_v33))
      = readCols128 (V (Proc.devRef .tc main_v32)) (V (Proc.devRef .tc main_v4)) := by
  simp only [opsRead1, takeOps]
  after_results_simp
  rfl

/-- That read leaves every array it does not write. -/
theorem opsRead1_keep (V : Valuation τ sig (Elt F)) (r : Ref sig .tc) (h : r ∉ takeW main_call2) :
    after opsRead1 V (no_index (Proc.devRef .tc r)) = V (Proc.devRef .tc r) :=
  after_of_writes_sub opsRead1 V (takeOps_writes _ _ _) h

set_option maxRecDepth 8192 in
set_option maxHeartbeats 1000000 in
/-- The second layer of the columns read, with the second layer's weights, mask and bias. -/
theorem layer2_val (V : Valuation τ sig (Elt F)) :
    after opsLayer2 V (no_index (Proc.devRef .tc main_v40))
      = dense128 (V (Proc.devRef .tc main_v33)) (V (Proc.devRef .tc main_arg4)) (V (Proc.devRef .tc main_arg6)) (V (Proc.devRef .tc main_arg5)) := by
  simp only [opsLayer2]
  after_results_simp
  rfl

/-- The second layer leaves every array it does not write. -/
theorem opsLayer2_keep (V : Valuation τ sig (Elt F)) (r : Ref sig .tc) (h : r ∉ opsLayer2_W) :
    after opsLayer2 V (no_index (Proc.devRef .tc r)) = V (Proc.devRef .tc r) :=
  after_of_writes_sub opsLayer2 V opsLayer2_writes h

set_option maxRecDepth 8192 in
set_option maxHeartbeats 1000000 in
/-- The second layer's output written into columns 256 … 383. -/
theorem write2_val (V : Valuation τ sig (Elt F)) :
    after opsWrite2 V (no_index (Proc.devRef .tc main_v47))
      = writeCols128 (V (Proc.devRef .tc main_v32)) (V (Proc.devRef .tc main_v7)) (V (Proc.devRef .tc main_v40)) := by
  simp only [opsWrite2]
  after_results_simp
  rfl

/-- That write leaves every array it does not write. -/
theorem opsWrite2_keep (V : Valuation τ sig (Elt F)) (r : Ref sig .tc) (h : r ∉ opsWrite2_W) :
    after opsWrite2 V (no_index (Proc.devRef .tc r)) = V (Proc.devRef .tc r) :=
  after_of_writes_sub opsWrite2 V opsWrite2_writes h

/-! ## The last layer -/

set_option maxRecDepth 8192 in
set_option maxHeartbeats 1000000 in
/-- The read of columns 256 … 383. -/
theorem read2_val (V : Valuation τ sig (Elt F)) :
    after opsRead2 V (no_index (Proc.devRef .tc main_v48))
      = readCols128 (V (Proc.devRef .tc main_v47)) (V (Proc.devRef .tc main_v7)) := by
  simp only [opsRead2, takeOps]
  after_results_simp
  rfl

/-- That read leaves every array it does not write. -/
theorem opsRead2_keep (V : Valuation τ sig (Elt F)) (r : Ref sig .tc) (h : r ∉ takeW main_call4) :
    after opsRead2 V (no_index (Proc.devRef .tc r)) = V (Proc.devRef .tc r) :=
  after_of_writes_sub opsRead2 V (takeOps_writes _ _ _) h

set_option maxRecDepth 8192 in
set_option maxHeartbeats 1000000 in
/-- The last layer's weights times its mask, entry by entry. -/
theorem mask3_val (V : Valuation τ sig (Elt F)) :
    after opsMask3 V (no_index (Proc.devRef .tc main_v49))
      = mulf (V (Proc.devRef .tc main_arg7)) (V (Proc.devRef .tc main_arg9)) := by
  simp only [opsMask3]
  after_results_simp

/-- That product leaves every array it does not write. -/
theorem opsMask3_keep (V : Valuation τ sig (Elt F)) (r : Ref sig .tc) (h : r ∉ opsMask3_W) :
    after opsMask3 V (no_index (Proc.devRef .tc r)) = V (Proc.devRef .tc r) :=
  after_of_writes_sub opsMask3 V opsMask3_writes h

set_option maxRecDepth 8192 in
set_option maxHeartbeats 1000000 in
/-- The last layer of the columns read from its masked weights on: the product with their transpose, plus the bias laid along the rows, and the larger of that and zero. -/
theorem layer3_val (V : Valuation τ sig (Elt F)) :
    after opsLayer3 V (no_index (Proc.devRef .tc main_v55))
      = maximumf
          (addf (Host.dotGeneral dot_S16384x128_S128x64_S16384x64_1_0_0_1_n_n none (V (Proc.devRef .tc main_v48))
              (transpose S128x64 [1, 0] (V (Proc.devRef .tc main_v49)) transposes_S64x128_S128x64_1_0))
            (broadcastInDim S16384x64 ![0, 1] bcast_S1x64_S16384x64_0_1 (broadcastInDim S1x64 ![1] bcast_S64_S1x64_1 (V (Proc.devRef .tc main_arg8)))))
          (broadcastInDim S16384x64 ![] bcast_S_S16384x64 (constant S_ .f32 0x00000000#32)) := by
  simp only [opsLayer3]
  after_results_simp
  rfl

/-- The last layer leaves every array it does not write. -/
theorem opsLayer3_keep (V : Valuation τ sig (Elt F)) (r : Ref sig .tc) (h : r ∉ opsLayer3_W) :
    after opsLayer3 V (no_index (Proc.devRef .tc r)) = V (Proc.devRef .tc r) :=
  after_of_writes_sub opsLayer3 V opsLayer3_writes h

set_option maxRecDepth 8192 in
set_option maxHeartbeats 1000000 in
/-- The last layer's output written into columns 384 … 447. -/
theorem write3_val (V : Valuation τ sig (Elt F)) :
    after opsWrite3 V (no_index (Proc.devRef .tc main_v62))
      = writeCols64 (V (Proc.devRef .tc main_v47)) (V (Proc.devRef .tc main_v10)) (V (Proc.devRef .tc main_v55)) := by
  simp only [opsWrite3]
  after_results_simp
  rfl

/-- That write leaves every array it does not write. -/
theorem opsWrite3_keep (V : Valuation τ sig (Elt F)) (r : Ref sig .tc) (h : r ∉ opsWrite3_W) :
    after opsWrite3 V (no_index (Proc.devRef .tc r)) = V (Proc.devRef .tc r) :=
  after_of_writes_sub opsWrite3 V opsWrite3_writes h

set_option maxRecDepth 8192 in
set_option maxHeartbeats 1000000 in
/-- The read of columns 384 … 447: the program's result. -/
theorem read3_val (V : Valuation τ sig (Elt F)) :
    after opsRead3 V (no_index (Proc.devRef .tc main_v63))
      = readCols64 (V (Proc.devRef .tc main_v62)) (V (Proc.devRef .tc main_v10)) := by
  simp only [opsRead3, take64Ops]
  after_results_simp
  rfl

/-- That read leaves every array it does not write. -/
theorem opsRead3_keep (V : Valuation τ sig (Elt F)) (r : Ref sig .tc) (h : r ∉ take64W main_call6) :
    after opsRead3 V (no_index (Proc.devRef .tc r)) = V (Proc.devRef .tc r) :=
  after_of_writes_sub opsRead3 V (take64Ops_writes _ _ _) h

end Cert.ReferenceIdeal.Run

end
-- ==== Proof.RefRun.lean ====
/-
  The reference program's run.

  The program is its operations run in order, and each stretch of them leaves in the arrays later stretches read the
  named function of what it read. Composing the stretches from the last back to the first, the result array holds the
  last read of the activations array after the three layers' outputs were written into it, as a term of the ten
  argument arrays: the one `Term.res` names. No operation writes an argument array, so each keeps its contents.
  Every weakly fair execution from a memory with zero counters terminates in such a state.
-/
import proofs.«173291_g58299886076360_cont_9to1_m_691_15_alg».proof.Proof.RefRun1

noncomputable section

namespace Cert.ReferenceIdeal.Run

open Cert.ReferenceIdeal Idealize.ShloMosaic Idealize.ShloMosaic.TcCoe Idealize.SL.Sem Idealize.ShloMosaic.StableHlo
open Cert.ReferenceIdeal.Facts₀

variable {F : FTy → Type} [FloatOps F]

open Cert.ReferenceIdeal.Term

-- the gathers, scatters and folds stay closed: the equations below never look inside them
attribute [local irreducible] Host.scatter Host.gather Host.reduce

set_option maxRecDepth 8192 in
set_option maxHeartbeats 2000000 in
/-- After all the operations, from any contents, the result array is the reference's term of the ten arguments:
    the stretches' equations applied from the last stretch back to the first. -/
theorem res_eq (V : Valuation τ sig (Elt F)) :
    after ops V (Proc.devRef .tc main_v63)
      = Term.res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  simp only [ops, part0, part1, after_append]
  simp (disch := decide) only [read3_val, write3_val, layer3_val, mask3_val, read2_val, write2_val, layer2_val, read1_val, write1_val, layer1_val, read0_val, init_acts, init_colsIn, init_colsH1, init_colsH2, init_colsOut,
    opsInit_keep, opsRead0_keep, opsLayer1_keep, opsWrite1_keep, opsRead1_keep, opsLayer2_keep, opsWrite2_keep, opsRead2_keep, opsMask3_keep, opsLayer3_keep, opsWrite3_keep, opsRead3_keep]
  rfl

/-- An array no stretch writes holds after all the operations what it held before. -/
theorem ops_keep (V : Valuation τ sig (Elt F)) (r : Ref sig .tc)
    (h : r ∉ opsInit_W ++ (takeW main_call0 ++ (opsLayer1_W ++ (opsWrite1_W ++ (takeW main_call2 ++ (opsLayer2_W ++ (opsWrite2_W
          ++ (takeW main_call4 ++ (opsMask3_W ++ (opsLayer3_W ++ (opsWrite3_W ++ take64W main_call6))))))))))) :
    after ops V (Proc.devRef .tc r) = V (Proc.devRef .tc r) := by
  simp only [List.mem_append, not_or] at h
  obtain ⟨h0, h1, h2, h3, h4, h5, h6, h7, h8, h9, h10, h11⟩ := h
  simp only [ops, part0, part1, after_append]
  rw [opsRead3_keep _ _ h11, opsWrite3_keep _ _ h10, opsLayer3_keep _ _ h9, opsMask3_keep _ _ h8, opsRead2_keep _ _ h7,
    opsWrite2_keep _ _ h6, opsLayer2_keep _ _ h5, opsRead1_keep _ _ h4, opsWrite1_keep _ _ h3, opsLayer1_keep _ _ h2,
    opsRead0_keep _ _ h1, opsInit_keep _ _ h0]

/-- On every device, for any float values, from any memory with zero counters: every weakly fair execution of the
    program terminates with the result array at the reference's term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = Cert.ReferenceIdeal.Term.res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v63).trans (res_eq (launchContents m c)),
      (h c main_arg0).trans (ops_keep (launchContents m c) main_arg0 (by decide)),
      (h c main_arg1).trans (ops_keep (launchContents m c) main_arg1 (by decide)),
      (h c main_arg2).trans (ops_keep (launchContents m c) main_arg2 (by decide)),
      (h c main_arg3).trans (ops_keep (launchContents m c) main_arg3 (by decide)),
      (h c main_arg4).trans (ops_keep (launchContents m c) main_arg4 (by decide)),
      (h c main_arg5).trans (ops_keep (launchContents m c) main_arg5 (by decide)),
      (h c main_arg6).trans (ops_keep (launchContents m c) main_arg6 (by decide)),
      (h c main_arg7).trans (ops_keep (launchContents m c) main_arg7 (by decide)),
      (h c main_arg8).trans (ops_keep (launchContents m c) main_arg8 (by decide)),
      (h c main_arg9).trans (ops_keep (launchContents m c) main_arg9 (by decide))⟩)
    (run_seq scopedRefs_eq scopedSems_eq defs main (fun _ => ops) main_eq (fun _ => ops_sub) m ρ (fun _ => ops_fresh))

end Cert.ReferenceIdeal.Run

end
-- ==== Proof.LibScatterCols.lean ====
/-
  WRITING WHOLE COLUMNS OF AN ARRAY AND READING THEM BACK.

  A scatter whose body returns the update is a left fold over the update's positions, in a fixed order without
  repeats: the step for an update position either does nothing (its landing place is outside the array) or overwrites
  one position of the array with the update's entry. The first part is about such folds in general. A position of the
  array that no step lands on keeps its first value; a position that exactly one step lands on ends with that step's
  value (combined by the body with the first value), because the steps before it leave the position alone, that step
  writes it, and the steps after it leave it alone again. The order of the steps plays no part, so the fold is never
  evaluated.

  The second part reads that fact on a scatter with any dimension numbers: the update position j lands on the array
  position i exactly when, on every axis a, the signed start of j's window plus j's window coordinate is the
  coordinate of i. If one j lands on i and no other does, the scattered array holds at i the body applied to the old
  entry and the update's entry at j.

  The third part is the case of columns. The array is [R × C], the update is [R × N], and an [N × 1] table of
  integers names for the update's column k the array's column it goes to. The window axis of the update is its axis 0
  and goes to the array's axis 0 from start 0; the array's axis 1 takes its start from the table's entry (k, 0) and
  has window coordinate 0. So update position (r, k) lands on (r, table k). When the table reads c0, c0 + 1, …,
  c0 + N − 1 and c0 + N ≤ C, position (r, c0 + k) is inside the array and is the landing place of (r, k) only: another
  (r', k') with the same landing place has r' = r and c0 + k' = c0 + k. The gather with the mirror dimension numbers
  (whole columns, slice [R, 1]) reads at (r, k) the array's entry (r, min (table' k) (C − 1)); for a table' with the
  same entries the clamp changes nothing, since c0 + k ≤ C − 1. Reading after writing therefore returns the update.
-/
import Mathlib.Logic.Equiv.Defs
import Idealize.ShloMosaic.PureOps.ShapeOps
import Idealize.ShloMosaic.Lib.ValueIdx

noncomputable section

namespace Cert.LibScatterCols

open Idealize.ShloMosaic Idealize.ShloMosaic.ValueIdx

/-! ## Folds of overwriting steps

Below, step r m is the array r after the step for m, and g m is the position that step lands on, if any. The two
hypotheses say what a step does at a position: where it lands it puts f of the old entry and the value v m,
elsewhere it changes nothing. -/

/-- A position no step of the list lands on keeps its first value through the whole fold. -/
theorem foldl_step_miss {ι β γ : Type} (step : (ι → β) → γ → ι → β) (g : γ → Option ι)
    (hmiss : ∀ r m i, g m ≠ some i → step r m i = r i)
    (l : List γ) (x : ι → β) (i : ι) (hl : ∀ m ∈ l, g m ≠ some i) :
    l.foldl step x i = x i := by
  induction l generalizing x with
  | nil => rfl
  | cons a l ih =>
    rw [List.foldl_cons, ih _ (fun m hm => hl m (List.mem_cons_of_mem _ hm)),
      hmiss _ _ _ (hl a (List.mem_cons.2 (Or.inl rfl)))]

/-- A position that exactly one member n of a list without repeats lands on ends the fold with f of its first
    value and v n: the steps before n and after n leave the position alone. -/
theorem foldl_step_hit {ι β γ : Type} (step : (ι → β) → γ → ι → β) (g : γ → Option ι) (f : β → β → β) (v : γ → β)
    (hhit : ∀ r m i, g m = some i → step r m i = f (r i) (v m))
    (hmiss : ∀ r m i, g m ≠ some i → step r m i = r i)
    (l : List γ) (hnd : l.Nodup) (x : ι → β) (i : ι) (n : γ) (hn : n ∈ l) (hg : g n = some i)
    (huniq : ∀ m ∈ l, g m = some i → m = n) :
    l.foldl step x i = f (x i) (v n) := by
  induction l generalizing x with
  | nil => exact absurd hn List.not_mem_nil
  | cons a l ih =>
    rw [List.foldl_cons]
    have hnd' := List.nodup_cons.1 hnd
    by_cases ha : a = n
    · subst ha
      rw [foldl_step_miss step g hmiss l _ i
        (fun m hm hgm => hnd'.1 ((huniq m (List.mem_cons_of_mem _ hm) hgm) ▸ hm)), hhit _ _ _ hg]
    · have hn' : n ∈ l := by
        rcases List.mem_cons.1 hn with h | h
        · exact absurd h.symm ha
        · exact h
      have hga : g a ≠ some i := fun h => ha (huniq a (List.mem_cons.2 (Or.inl rfl)) h)
      rw [ih hnd'.2 _ hn' (fun m hm => huniq m (List.mem_cons_of_mem _ hm)), hmiss _ _ _ hga]

/-! ## A scatter read at one position -/

/-- Where an update position lands: j lands on i exactly when on every axis the signed start of j's window plus
    j's window coordinate is i's coordinate (such a sum is then inside the array, i being an index of it). -/
theorem resultIdx?_eq_some_iff {w : Nat} {s si u : Shape} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · next h =>
    constructor
    · intro e a
      have e' := Option.some.inj e
      rw [← e']
      exact (Int.toNat_of_nonneg (h a).1).symm
    · intro hall
      congr 1
      funext a
      apply Fin.ext
      show (d.start j idx a + (d.window j a : Int)).toNat = (i a).val
      rw [hall a]; rfl
  · next h =>
    constructor
    · intro e; cases e
    · intro hall
      exact absurd (fun a => by rw [hall a]; exact ⟨Int.natCast_nonneg _, by exact_mod_cast (i a).isLt⟩) h

/-- THE HIT. If update position j lands on i and no other update position does, the scattered array holds at i
    the body applied to the operand's entry at i and the update's entry at j. -/
theorem scatter_hit {α : Type} {w : Nat} {s si u : Shape} (d : ScatterDims s si u) (f : α → α → α) (x : s.Idx → α)
    (idx : IVec si w) (upd : u.Idx → α) (i : s.Idx) (j : u.Idx) (hj : d.resultIdx? j idx = some i)
    (huniq : ∀ j', d.resultIdx? j' idx = some i → j' = j) :
    Host.scatter d f x idx upd i = f (x i) (upd j) := by
  unfold Host.scatter
  refine (foldl_step_hit _ (fun n => d.resultIdx? (u.rowMajor.symm n) idx) f (fun n => upd (u.rowMajor.symm n))
    ?_ ?_ _ (List.nodup_finRange _) x i (u.rowMajor j) (List.mem_finRange _) ?_ ?_).trans ?_
  · intro r m i' h
    show (match d.resultIdx? (u.rowMajor.symm m) idx with
      | some i => fun i' => if i' = i then f (r i) (upd (u.rowMajor.symm m)) else r i'
      | none => r) i' = _
    rw [h]
    exact if_pos rfl
  · intro r m i' h
    show (match d.resultIdx? (u.rowMajor.symm m) idx with
      | some i => fun i' => if i' = i then f (r i) (upd (u.rowMajor.symm m)) else r i'
      | none => r) i' = _
    generalize d.resultIdx? (u.rowMajor.symm m) idx = q at h ⊢
    cases q with
    | none => rfl
    | some i'' => exact if_neg (fun e => h (by rw [e]))
  · show d.resultIdx? (u.rowMajor.symm (u.rowMajor j)) idx = some i
    rw [Equiv.symm_apply_apply]; exact hj
  · intro m _ hm
    have := huniq _ hm
    rw [← this, Equiv.apply_symm_apply]
  · show f (x i) (upd (u.rowMajor.symm (u.rowMajor j))) = _
    rw [Equiv.symm_apply_apply]

/-- THE MISS. A position no update position lands on holds, after the scatter, the operand's entry. -/
theorem scatter_miss {α : Type} {w : Nat} {s si u : Shape} (d : ScatterDims s si u) (f : α → α → α) (x : s.Idx → α)
    (idx : IVec si w) (upd : u.Idx → α) (i : s.Idx) (hno : ∀ j', d.resultIdx? j' idx ≠ some i) :
    Host.scatter d f x idx upd i = x i := by
  unfold Host.scatter
  refine foldl_step_miss _ (fun n => d.resultIdx? (u.rowMajor.symm n) idx) ?_ _ x i (fun m _ => hno _)
  intro r m i' h
  show (match d.resultIdx? (u.rowMajor.symm m) idx with
    | some i => fun i' => if i' = i then f (r i) (upd (u.rowMajor.symm m)) else r i'
    | none => r) i' = _
  generalize d.resultIdx? (u.rowMajor.symm m) idx = q at h ⊢
  cases q with
  | none => rfl
  | some i'' => exact if_neg (fun e => h (by rw [e]))

/-! ## Whole columns -/

/-- The scatter's dimension numbers for writing N whole columns of an [R × C] array at the columns an [N × 1] table
    names: the update's axis 0 is the window axis, the array's axis 1 is inserted and takes its start from the table. -/
abbrev colScatter (R C N : Nat) (wf : ScatterDims.WF ⟨2, ![R, C]⟩ ⟨2, ![N, 1]⟩ ⟨2, ![R, N]⟩ [0] [1] [1] 1) :
    ScatterDims ⟨2, ![R, C]⟩ ⟨2, ![N, 1]⟩ ⟨2, ![R, N]⟩ where
  updateWindowDims := [0]
  insertedWindowDims := [1]
  scatterDimsToOperandDims := [1]
  indexVectorDim := 1
  wf := wf

/-- The gather's dimension numbers for reading N whole columns of an [R × C] array at the columns an [N × 1] table
    names: slices [R, 1], the result's axis 0 the offset axis, the array's axis 1 collapsed and started from the table. -/
abbrev colGather (R C N : Nat) (wf : GatherDims.WF ⟨2, ![R, C]⟩ ⟨2, ![N, 1]⟩ ⟨2, ![R, N]⟩ [0] [1] [] [1] [] 1 ![R, 1]) :
    GatherDims ⟨2, ![R, C]⟩ ⟨2, ![N, 1]⟩ ⟨2, ![R, N]⟩ where
  offsetDims := [0]
  collapsedSliceDims := [1]
  operandBatchingDims := []
  startIndicesBatchingDims := []
  startIndexMap := [1]
  indexVectorDim := 1
  sliceSizes := ![R, 1]
  wf := wf

section Cols
variable {w : Nat} (R C N : Nat)
  (wfs : ScatterDims.WF ⟨2, ![R, C]⟩ ⟨2, ![N, 1]⟩ ⟨2, ![R, N]⟩ [0] [1] [1] 1)
  (wfg : GatherDims.WF ⟨2, ![R, C]⟩ ⟨2, ![N, 1]⟩ ⟨2, ![R, N]⟩ [0] [1] [] [1] [] 1 ![R, 1])

/-- On the array's axis 0 the window of update position (r, k) starts at 0 and has window coordinate r. -/
theorem colScatter_sum0 (idx : IVec ⟨2, ![N, 1]⟩ w) (r : Fin R) (k : Fin N) :
    (colScatter R C N wfs).start (ix2 r k) idx 0 + ((colScatter R C N wfs).window (ix2 r k) 0 : Int) = (r.val : Int) := by
  have hs : (colScatter R C N wfs).start (ix2 r k) idx 0 = 0 := by
    unfold ScatterDims.start
    rw [dif_neg (show (0 : Fin 2) ∉ ([1] : List (Fin 2)) by decide)]
  have hw : (colScatter R C N wfs).window (ix2 r k) 0 = r.val := rfl
  rw [hs, hw, Int.zero_add]

/-- On the array's axis 1 the window of update position (r, k) starts at the table's entry (k, 0), read signed, and
    has window coordinate 0. -/
theorem colScatter_sum1 (idx : IVec ⟨2, ![N, 1]⟩ w) (r : Fin R) (k : Fin N) :
    (colScatter R C N wfs).start (ix2 r k) idx 1 + ((colScatter R C N wfs).window (ix2 r k) 1 : Int)
      = (idx (ix2 k (0 : Fin 1))).toInt := by
  have hs : (colScatter R C N wfs).start (ix2 r k) idx 1 = (idx (ix2 k (0 : Fin 1))).toInt := by
    unfold ScatterDims.start
    rw [dif_pos (List.mem_singleton.2 rfl)]
    congr 2
    funext b
    apply Fin.ext
    match b with
    | ⟨0, _⟩ => rfl
    | ⟨1, _⟩ => rfl
  have hw : (colScatter R C N wfs).window (ix2 r k) 1 = 0 := rfl
  rw [hs, hw]; simp

/-- Update position (r, k) lands on (r, c0 + k) when the table reads c0 + k at k. -/
theorem colScatter_resultIdx (idx : IVec ⟨2, ![N, 1]⟩ w) (c0 : Nat) (hc : c0 + N ≤ C)
    (hidx : ∀ k : Fin N, (idx (ix2 k (0 : Fin 1))).toInt = ((c0 + k.val : Nat) : Int)) (r : Fin R) (k : Fin N) :
    (colScatter R C N wfs).resultIdx? (ix2 r k) idx = some (ix2 r (⟨c0 + k.val, by omega⟩ : Fin C)) := by
  refine (resultIdx?_eq_some_iff _ _ _ _).2 fun a => ?_
  match a with
  | ⟨0, _⟩ => exact colScatter_sum0 R C N wfs idx r k
  | ⟨1, _⟩ => exact (colScatter_sum1 R C N wfs idx r k).trans (hidx k)

/-- Nothing else lands there: an update position landing on (r, c0 + k) has row r and a column k' with
    c0 + k' = c0 + k. -/
theorem colScatter_resultIdx_unique (idx : IVec ⟨2, ![N, 1]⟩ w) (c0 : Nat) (hc : c0 + N ≤ C)
    (hidx : ∀ k : Fin N, (idx (ix2 k (0 : Fin 1))).toInt = ((c0 + k.val : Nat) : Int)) (r : Fin R) (k : Fin N)
    (j' : (⟨2, ![R, N]⟩ : Shape).Idx)
    (hj' : (colScatter R C N wfs).resultIdx? j' idx = some (ix2 r (⟨c0 + k.val, by omega⟩ : Fin C))) :
    j' = ix2 r k := by
  obtain ⟨r', k', rfl⟩ : ∃ (r' : Fin R) (k' : Fin N), j' = ix2 r' k' := ⟨j' 0, j' 1, eq_ix2 j'⟩
  have h := (resultIdx?_eq_some_iff _ _ _ _).1 hj'
  have h0 := h (0 : Fin 2)
  have h1 := h (1 : Fin 2)
  rw [colScatter_sum0] at h0
  rw [colScatter_sum1, hidx k'] at h1
  change (r'.val : Int) = (r.val : Int) at h0
  change ((c0 + k'.val : Nat) : Int) = ((c0 + k.val : Nat) : Int) at h1
  have er : r' = r := Fin.ext (by exact_mod_cast h0)
  have ek : k' = k := Fin.ext (by omega)
  rw [er, ek]

/-- The gather reads at (r, k) the array's position (r, c0 + k) when its table reads c0 + k at k: axis 0 has start 0
    and offset r; axis 1 has the table's entry clamped to C − 1, which it does not exceed, and offset 0. -/
theorem colGather_operandIdx (idx' : IVec ⟨2, ![N, 1]⟩ w) (c0 : Nat) (hc : c0 + N ≤ C) (r : Fin R) (k : Fin N)
    (hk : (idx' (ix2 k (0 : Fin 1))).toInt = ((c0 + k.val : Nat) : Int)) :
    (colGather R C N wfg).operandIdx (ix2 r k) idx' = ix2 r (⟨c0 + k.val, by omega⟩ : Fin C) := by
  funext a
  apply Fin.ext
  show (colGather R C N wfg).start (ix2 r k) idx' a + (colGather R C N wfg).batchCoord (ix2 r k) a
    + (colGather R C N wfg).offCoord (ix2 r k) a = _
  match a with
  | ⟨0, _⟩ =>
    have hs : (colGather R C N wfg).start (ix2 r k) idx' (0 : Fin 2) = 0 := by
      unfold GatherDims.start
      rw [dif_neg (show (0 : Fin 2) ∉ ([1] : List (Fin 2)) by decide)]
    have hb : (colGather R C N wfg).batchCoord (ix2 r k) (0 : Fin 2) = 0 := rfl
    have ho : (colGather R C N wfg).offCoord (ix2 r k) (0 : Fin 2) = r.val := rfl
    show (colGather R C N wfg).start (ix2 r k) idx' (0 : Fin 2) + (colGather R C N wfg).batchCoord (ix2 r k) (0 : Fin 2)
      + (colGather R C N wfg).offCoord (ix2 r k) (0 : Fin 2) = r.val
    rw [hs, hb, ho]; omega
  | ⟨1, _⟩ =>
    have hs : (colGather R C N wfg).start (ix2 r k) idx' (1 : Fin 2) = min (idx' (ix2 k (0 : Fin 1))).toInt.toNat (C - 1) := by
      unfold GatherDims.start
      rw [dif_pos (show (1 : Fin 2) ∈ (colGather R C N wfg).startIndexMap from List.mem_singleton.2 rfl)]
      have hsi : (colGather R C N wfg).siIdx (ix2 r k) ⟨List.idxOf (1 : Fin 2) (colGather R C N wfg).startIndexMap,
          List.idxOf_lt_length_iff.2 (List.mem_singleton.2 rfl)⟩ = ix2 k (0 : Fin 1) := by
        funext b; refine Fin.ext ?_
        match b with
        | ⟨0, _⟩ => rfl
        | ⟨1, _⟩ => rfl
      rw [hsi]
      rfl
    have hb : (colGather R C N wfg).batchCoord (ix2 r k) (1 : Fin 2) = 0 := rfl
    have ho : (colGather R C N wfg).offCoord (ix2 r k) (1 : Fin 2) = 0 := rfl
    show (colGather R C N wfg).start (ix2 r k) idx' (1 : Fin 2) + (colGather R C N wfg).batchCoord (ix2 r k) (1 : Fin 2)
      + (colGather R C N wfg).offCoord (ix2 r k) (1 : Fin 2) = c0 + k.val
    rw [hs, hb, ho, hk]
    have := k.isLt
    simp only [Int.toNat_natCast, Nat.add_zero]
    omega

end Cols

/-- WRITE, THEN READ. N whole columns written into an [R × C] array at the columns c0, c0 + 1, …, c0 + N − 1 (all
    inside the array) and read back at the same columns are the columns written: the gather reads (r, c0 + k), and
    the one update position landing there is (r, k), whose entry the body returns. -/
theorem gather_scatter_cols {α : Type} {w : Nat} (R C N : Nat)
    (wfs : ScatterDims.WF ⟨2, ![R, C]⟩ ⟨2, ![N, 1]⟩ ⟨2, ![R, N]⟩ [0] [1] [1] 1)
    (wfg : GatherDims.WF ⟨2, ![R, C]⟩ ⟨2, ![N, 1]⟩ ⟨2, ![R, N]⟩ [0] [1] [] [1] [] 1 ![R, 1])
    (x : (⟨2, ![R, C]⟩ : Shape).Idx → α) (idx idx' : IVec ⟨2, ![N, 1]⟩ w) (upd : (⟨2, ![R, N]⟩ : Shape).Idx → α)
    (c0 : Nat) (hc : c0 + N ≤ C)
    (hidx : ∀ k : Fin N, (idx (ix2 k (0 : Fin 1))).toInt = ((c0 + k.val : Nat) : Int))
    (hidx' : ∀ k : Fin N, (idx' (ix2 k (0 : Fin 1))).toInt = ((c0 + k.val : Nat) : Int)) :
    Host.gather (colGather R C N wfg) (Host.scatter (colScatter R C N wfs) (fun _ b => b) x idx upd) idx' = upd := by
  funext j
  obtain ⟨r, k, rfl⟩ : ∃ (r : Fin R) (k : Fin N), j = ix2 r k := ⟨j 0, j 1, eq_ix2 j⟩
  show Host.scatter (colScatter R C N wfs) (fun _ b => b) x idx upd ((colGather R C N wfg).operandIdx (ix2 r k) idx') = _
  rw [colGather_operandIdx R C N wfg idx' c0 hc r k (hidx' k)]
  exact scatter_hit _ _ x idx upd _ (ix2 r k) (colScatter_resultIdx R C N wfs idx c0 hc hidx r k)
    (fun j' hj' => colScatter_resultIdx_unique R C N wfs idx c0 hc hidx r k j' hj')

end Cert.LibScatterCols

end
-- ==== Proof.RefTake.lean ====
/-
  Reading back the columns just written.

  The activations array has 448 columns. A range of N columns starting at column c0 is named by the vector whose entry k
  is the 32-bit word of the number c0 + k (the position, plus the first column). Since c0 + N ≤ 448, each such word is
  far below 2³¹: read as a signed number it is c0 + k itself, it is not negative, and it lies in 0 … 447. So
  * moving negative column numbers up by 448 changes nothing: the [N × 1] table of wrapped numbers holds c0 + k at (k, 0);
  * the range check is passed by every column: each bit of the check is 1, being the conjunction, started from 1, of
    "0 ≤ c0 + k" and "c0 + k ≤ 447" over the single entry of row k;
  * so a read keeps the gathered value at every entry and never the fill.
  What remains is a gather of the columns c0 … c0 + N − 1 from an array into which exactly those columns were scattered,
  one update column per column number, all distinct and all inside the array: it returns the updates.
  These facts are stated once for any N and c0 and then used for the four ranges 0 … 127, 128 … 255, 256 … 383
  (N = 128) and 384 … 447 (N = 64).
-/
import proofs.«173291_g58299886076360_cont_9to1_m_691_15_alg».proof.Proof.RefTerm
import proofs.«173291_g58299886076360_cont_9to1_m_691_15_alg».proof.Proof.LibScatterCols
import Idealize.ShloMosaic.Lib.StableHlo.Predicate
import Idealize.ShloMosaic.Lib.ValueIdx

noncomputable section

namespace Cert.ReferenceIdeal.Take

open Cert.ReferenceIdeal Cert.ReferenceIdeal.Term Idealize.ShloMosaic Idealize.ShloMosaic.ValueIdx
open Idealize.ShloMosaic.StableHlo

/-! ## Facts for any number of columns N and any first column c0 -/

section AnyRange
variable {N : Nat}

/-- The vector names the columns c0, c0 + 1, …: its entry k is the word of c0 + k. -/
def Names (idx : IVec ⟨1, ![N]⟩ 32) (c0 : Nat) : Prop := ∀ k : Fin N, idx (ix1 k) = BitVec.ofNat 32 (c0 + k.val)

/-- The positions 0, 1, … name the columns from 0. -/
theorem names_iota : Names (iotaInDim (⟨1, ![N]⟩ : Shape) 32 0) 0 := fun k => by
  show BitVec.ofNat 32 k.val = BitVec.ofNat 32 (0 + k.val)
  rw [Nat.zero_add]

/-- The positions with the word of c0 added to each name the columns from c0. -/
theorem names_offset (h : S_.BroadcastsInDim (⟨1, ![N]⟩ : Shape) ![]) (c0 : Nat) :
    Names (addi (broadcastInDim (⟨1, ![N]⟩ : Shape) ![] h (constantI S_ 32 (BitVec.ofNat 32 c0))) (iotaInDim (⟨1, ![N]⟩ : Shape) 32 0)) c0 :=
  fun k => by
    show BitVec.ofNat 32 c0 + BitVec.ofNat 32 k.val = BitVec.ofNat 32 (c0 + k.val)
    rw [BitVec.ofNat_add]

/-- The word of a number below 2³¹ has that number as its value. -/
theorem toNat_word (a : Nat) (ha : a < 2 ^ 31) : (BitVec.ofNat 32 a).toNat = a := by
  rw [BitVec.toNat_ofNat]; omega

/-- Row k of a one-column table, in the two spellings of that index. -/
theorem ixP_eq {n : Nat} (k : Fin n) : Predicate.ixP k = ix2 k (0 : Fin 1) := by
  funext a; match a with | ⟨0, _⟩ => rfl | ⟨1, _⟩ => rfl

/-- Position k of a vector, in the two spellings of that index. -/
theorem ofFin_eq {n : Nat} (k : Fin n) : Shape.Idx.ofFin k = ix1 k := by
  funext a; match a with | ⟨0, _⟩ => rfl

/-- The wrapped table of a vector naming columns inside the array holds c0 + k at (k, 0): no number is negative, so
    none is moved. -/
theorem wrapped_apply (h0 : S_.BroadcastsInDim (⟨1, ![N]⟩ : Shape) ![])
    (h1 : (⟨1, ![N]⟩ : Shape).BroadcastsInDim ⟨2, ![N, 1]⟩ ![0]) (idx : IVec ⟨1, ![N]⟩ 32) (c0 : Nat)
    (hc : c0 + N ≤ 448) (hidx : Names idx c0) (k : Fin N) :
    broadcastInDim (⟨2, ![N, 1]⟩ : Shape) ![0] h1
      (select (cmpi .slt idx (broadcastInDim (⟨1, ![N]⟩ : Shape) ![] h0 (constantI S_ 32 0#32)))
        (addi idx (broadcastInDim (⟨1, ![N]⟩ : Shape) ![] h0 (constantI S_ 32 448#32))) idx) (ix2 k (0 : Fin 1))
      = BitVec.ofNat 32 (c0 + k.val) := by
  rw [← ixP_eq, Predicate.bcast_col1, ofFin_eq, select_apply]
  have hk := k.isLt
  have hlt : ¬ IntOp.cmpi .slt (idx (ix1 k)) 0#32 = 1#1 := by
    rw [hidx k, Predicate.slt_iff_toNat (by rw [toNat_word _ (by omega)]; omega) (by decide)]
    exact Nat.not_lt_zero _
  show Scalar.select (IntOp.cmpi .slt (idx (ix1 k)) 0#32) _ (idx (ix1 k)) = _
  rw [eq_zero_of_ne_one hlt, select_zero, hidx k]

/-- Read as a signed number the wrapped table's entry (k, 0) is c0 + k. -/
theorem wrapped_toInt (h0 : S_.BroadcastsInDim (⟨1, ![N]⟩ : Shape) ![])
    (h1 : (⟨1, ![N]⟩ : Shape).BroadcastsInDim ⟨2, ![N, 1]⟩ ![0]) (idx : IVec ⟨1, ![N]⟩ 32) (c0 : Nat)
    (hc : c0 + N ≤ 448) (hidx : Names idx c0) (k : Fin N) :
    (broadcastInDim (⟨2, ![N, 1]⟩ : Shape) ![0] h1
      (select (cmpi .slt idx (broadcastInDim (⟨1, ![N]⟩ : Shape) ![] h0 (constantI S_ 32 0#32)))
        (addi idx (broadcastInDim (⟨1, ![N]⟩ : Shape) ![] h0 (constantI S_ 32 448#32))) idx) (ix2 k (0 : Fin 1))).toInt
      = ((c0 + k.val : Nat) : Int) := by
  have hk := k.isLt
  rw [wrapped_apply h0 h1 idx c0 hc hidx k, Predicate.toInt_ofNat_small _ (by omega)]

/-- A conjunction started from 1 over bits that are all 1 is 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a]
    exact foldl_andi_ones f hf l

/-- The range check of a table holding c0 + k at (k, 0), with c0 + N ≤ 448, is passed everywhere: every bit is 1. -/
theorem inRange_apply (hb0 : S_.BroadcastsInDim (⟨2, ![N, 1]⟩ : Shape) ![])
    (hb1 : S1.BroadcastsInDim S1x1 ![1]) (hb2 : S1x1.BroadcastsInDim (⟨2, ![N, 1]⟩ : Shape) ![0, 1])
    (hr : (⟨2, ![N, 1]⟩ : Shape).ReducesTo [1] ⟨1, ![N]⟩) (hu : 0 < S_.numel)
    (w : IVec ⟨2, ![N, 1]⟩ 32) (c0 : Nat) (hc : c0 + N ≤ 448)
    (hw : ∀ k : Fin N, w (ix2 k (0 : Fin 1)) = BitVec.ofNat 32 (c0 + k.val)) (j : (⟨1, ![N]⟩ : Shape).Idx) :
    Host.reduce IntOp.andi
      (andi (cmpi .sge w (broadcastInDim (⟨2, ![N, 1]⟩ : Shape) ![] hb0 (constantI S_ 32 0#32)))
        (cmpi .sle w (broadcastInDim (⟨2, ![N, 1]⟩ : Shape) ![0, 1] hb2 (broadcastInDim S1x1 ![1] hb1 (constantI S1 32 447#32)))))
      (constantI S_ 1 1#1) hr hu j = 1#1 := by
  rw [Host.reduce_eq_foldl]
  refine foldl_andi_ones _ (fun i => ?_) _
  obtain ⟨k, z, rfl⟩ : ∃ (k : Fin N) (z : Fin 1), i = ix2 k z := ⟨i 0, i 1, eq_ix2 i⟩
  obtain rfl : z = 0 := Subsingleton.elim _ _
  have hk := k.isLt
  show IntOp.andi (IntOp.cmpi .sge (w (ix2 k 0)) 0#32) (IntOp.cmpi .sle (w (ix2 k 0)) 447#32) = 1#1
  rw [hw k, (Predicate.sge_iff_toNat (by rw [toNat_word _ (by omega)]; omega) (by decide)).mpr (Nat.zero_le _),
    (Predicate.sle_iff_toNat (by rw [toNat_word _ (by omega)]; omega) (by decide)).mpr (by rw [toNat_word _ (by omega)]; show c0 + k.val ≤ 447; omega)]
  rfl

end AnyRange

variable {F : FTy → Type} [FloatOps F] [Facts]

open Cert.ReferenceIdeal.Facts₀

/-! ## The four ranges -/

/-- Any 128 columns inside the array, written and read back, give back what was written. -/
theorem read_write128 (x : FVec F S16384x448 .f32) (upd : FVec F S16384x128 .f32) (idx : IVec S128 32) (c0 : Nat)
    (hc : c0 + 128 ≤ 448) (hidx : Names idx c0) : readCols128 (writeCols128 x idx upd) idx = upd := by
  funext i
  have hbit : broadcastInDim S16384x128 ![1] bcast_S128_S16384x128_1 (inRange128 idx) i = 1#1 :=
    inRange_apply bcast_S_S128x1 bcast_S1_S1x1_1 bcast_S1x1_S128x1_0_1 reducesTo_S128x1_S128_d1 h_S_ (wrapped128 idx) c0 hc
      (wrapped_apply bcast_S_S128 bcast_S128_S128x1_0 idx c0 hc hidx) _
  show Scalar.select (broadcastInDim S16384x128 ![1] bcast_S128_S16384x128_1 (inRange128 idx) i)
    (Host.gather gather_S16384x448_S128x1_S16384x128_0_1_n_n_1_1_163841 (writeCols128 x idx upd) (wrapped128 idx) i) _ = upd i
  rw [hbit, select_one]
  exact congrFun (Cert.LibScatterCols.gather_scatter_cols 16384 448 128
    scatter_S16384x448_S128x1_S16384x128_0_1_1_1_wf gather_S16384x448_S128x1_S16384x128_0_1_n_n_1_1_163841_wf
    x (wrapped128 idx) (wrapped128 idx) upd c0 hc
    (wrapped_toInt bcast_S_S128 bcast_S128_S128x1_0 idx c0 hc hidx)
    (wrapped_toInt bcast_S_S128 bcast_S128_S128x1_0 idx c0 hc hidx)) i

/-- Any 64 columns inside the array, written and read back, give back what was written. -/
theorem read_write64 (x : FVec F S16384x448 .f32) (upd : FVec F S16384x64 .f32) (idx : IVec S64 32) (c0 : Nat)
    (hc : c0 + 64 ≤ 448) (hidx : Names idx c0) : readCols64 (writeCols64 x idx upd) idx = upd := by
  funext i
  have hbit : broadcastInDim S16384x64 ![1] bcast_S64_S16384x64_1 (inRange64 idx) i = 1#1 :=
    inRange_apply bcast_S_S64x1 bcast_S1_S1x1_1 bcast_S1x1_S64x1_0_1 reducesTo_S64x1_S64_d1 h_S_ (wrapped64 idx) c0 hc
      (wrapped_apply bcast_S_S64 bcast_S64_S64x1_0 idx c0 hc hidx) _
  show Scalar.select (broadcastInDim S16384x64 ![1] bcast_S64_S16384x64_1 (inRange64 idx) i)
    (Host.gather gather_S16384x448_S64x1_S16384x64_0_1_n_n_1_1_163841 (writeCols64 x idx upd) (wrapped64 idx) i) _ = upd i
  rw [hbit, select_one]
  exact congrFun (Cert.LibScatterCols.gather_scatter_cols 16384 448 64
    scatter_S16384x448_S64x1_S16384x64_0_1_1_1_wf gather_S16384x448_S64x1_S16384x64_0_1_n_n_1_1_163841_wf
    x (wrapped64 idx) (wrapped64 idx) upd c0 hc
    (wrapped_toInt bcast_S_S64 bcast_S64_S64x1_0 idx c0 hc hidx)
    (wrapped_toInt bcast_S_S64 bcast_S64_S64x1_0 idx c0 hc hidx)) i

/-- Columns 0 … 127. -/
theorem read_write_in (x : FVec F S16384x448 .f32) (upd : FVec F S16384x128 .f32) :
    readCols128 (writeCols128 x colsIn upd) colsIn = upd :=
  read_write128 x upd colsIn 0 (by decide) names_iota

/-- Columns 128 … 255. -/
theorem read_write_h1 (x : FVec F S16384x448 .f32) (upd : FVec F S16384x128 .f32) :
    readCols128 (writeCols128 x colsH1 upd) colsH1 = upd :=
  read_write128 x upd colsH1 128 (by decide) (names_offset bcast_S_S128 128)

/-- Columns 256 … 383. -/
theorem read_write_h2 (x : FVec F S16384x448 .f32) (upd : FVec F S16384x128 .f32) :
    readCols128 (writeCols128 x colsH2 upd) colsH2 = upd :=
  read_write128 x upd colsH2 256 (by decide) (names_offset bcast_S_S128 256)

/-- Columns 384 … 447. -/
theorem read_write_out (x : FVec F S16384x448 .f32) (upd : FVec F S16384x64 .f32) :
    readCols64 (writeCols64 x colsOut upd) colsOut = upd :=
  read_write64 x upd colsOut 384 (by decide) (names_offset bcast_S_S64 384)

end Cert.ReferenceIdeal.Take

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.RefValue.lean ====
/-
  The reference's result, at the exact (extended-real) values, is the three masked layers of the specification.

  Two things are shown.

  First, one layer. The reference forms a layer as a plain matrix product of the rows read with the TRANSPOSE of the
  masked weights, adds the bias laid along the rows, and takes the larger of that and zero. Entry (i, j) of the plain
  product is the sum over q of x (i, q) times the right factor at (q, j); the right factor is the transpose of the
  entrywise product W ∘ M, so at (q, j) it is W (j, q) · M (j, q). The bias is first made a [1 × N] row and then
  repeated down the rows, so at (i, j) it is b (j). The scalar zero repeated over the whole array is 0 at every entry.
  Hence entry (i, j) is  max (∑ q, x (i, q) · (W (j, q) · M (j, q)) + b (j)) 0,  which is the specification's layer
  word for word: the same sum, in the same order, of the same products. No law of the extended reals is used.

  Second, the whole computation. The reference threads its layers through one wide array of activations: it writes
  an array into a range of columns and at once reads the same range back. Reading back the columns just written
  returns what was written, whatever else the wide array holds; so the wide array drops out of every step. The input
  of the first layer is the argument itself, the input of the second layer is the first layer's output, the input of
  the third is the second's output, and the result is the third layer's output. Composing the three layer formulas
  gives the specification's three layers in sequence, read at (row, column) of the result index.
-/
import proofs.«173291_g58299886076360_cont_9to1_m_691_15_alg».proof.Proof.RefTerm
import proofs.«173291_g58299886076360_cont_9to1_m_691_15_alg».proof.Proof.RefTake
import proofs.«173291_g58299886076360_cont_9to1_m_691_15_alg».proof.Proof.LibDotPlain
import proofs.«173291_g58299886076360_cont_9to1_m_691_15_alg».proof.Proof.Spec
import Idealize.ShloMosaic.Lib.ValueIdx
import Idealize.ShloMosaic.Lib.Pipeline.Value
import Idealize.ShloMosaic.Lib.StableHlo.Predicate
import Mathlib.Algebra.BigOperators.Group.Finset.Basic

noncomputable section

open scoped BigOperators

namespace Cert.ReferenceIdeal.Whole

open Cert.ReferenceIdeal Cert.ReferenceIdeal.Term Idealize.ShloMosaic Idealize.ShloMosaic.ValueIdx
open Cert.ReferenceIdeal.Facts₀

variable [Facts]

/-! ## One layer at one entry -/

/-- The scalar whose word is all zero bits, repeated over an array of any shape, is the extended real 0 at every
    entry: repeating a scalar reads the scalar, and the all-zero word encodes 0. -/
theorem zero_at (t : Shape) (h : S_.BroadcastsInDim t ![]) (e : t.Idx) :
    broadcastInDim t ![] h (constant (F := Ideal) S_ .f32 0x00000000#32) e = 0 := by
  refine (StableHlo.Predicate.bcast_scalar h h_S_ _ e).trans ?_
  rw [constant_apply]
  exact Ideal.ofBits_zero_f32

/-- A layer of 128 units at entry (i, j): the plain product's entry is the sum over q of x (i, q) times the transposed
    masked weights at (q, j), which are W (j, q) · M (j, q); the bias repeated down the rows is b (j); the repeated
    zero is 0. That is the specification's layer at (i, j). -/
theorem dense128_apply (x : FVec Ideal S16384x128 .f32) (W M : FVec Ideal S128x128 .f32) (b : FVec Ideal S128 .f32)
    (i : Fin 16384) (j : Fin 128) :
    dense128 (F := Ideal) x W M b (ix2 i j)
      = Cert.Mlp.layer (fun i q => x (ix2 i q)) (fun a q => W (ix2 a q)) (fun a q => M (ix2 a q)) (fun a => b (ix1 a)) i j := by
  -- the transposed masked weights at (q, j) are the masked weights at (j, q)
  have hT : ∀ q : Fin 128, transpose S128x128 [1, 0] (mulf W M) transposes_S128x128_S128x128_1_0 (ix2 q j)
      = W (ix2 j q) * M (ix2 j q) := by
    intro q
    refine (transpose_apply [1, 0] (mulf W M) transposes_S128x128_S128x128_1_0 (ix2 q j) (ix2 j q) ?_).trans ?_
    · intro a
      match a with
      | ⟨0, _⟩ => rfl
      | ⟨1, _⟩ => rfl
    · rfl
  -- the product's entry: its dimension numbers are those of the plain M × K by K × N product
  have hD : Host.dotGeneral dot_S16384x128_S128x128_S16384x128_1_0_0_1_n_n none x
        (transpose S128x128 [1, 0] (mulf W M) transposes_S128x128_S128x128_1_0) (ix2 i j)
      = ∑ q : Fin 128, x (ix2 i q) * (W (ix2 j q) * M (ix2 j q)) := by
    refine (Cert.LibDotPlain.dotGeneral_plain 16384 128 128 none .single x _ i j).trans ?_
    exact Finset.sum_congr rfl fun q _ => by rw [hT q]
  -- the bias as a [1 × 128] row repeated down the 16384 rows
  have hB : broadcastInDim S16384x128 ![0, 1] bcast_S1x128_S16384x128_0_1 (broadcastInDim S1x128 ![1] bcast_S128_S1x128_1 b) (ix2 i j)
      = b (ix1 j) := by
    refine (StableHlo.Predicate.bcast_cols bcast_S128_S1x128_1 bcast_S1x128_S16384x128_0_1 b i j).trans ?_
    exact congrArg b (eq_ix1 _)
  unfold dense128
  rw [maximumf_apply, addf_apply, hD, hB, zero_at]
  rfl

/-- The layer of 64 units at entry (i, j), by the same reading: the transposed masked weights are now [128 × 64] and
    at (q, j) are W (j, q) · M (j, q) of the [64 × 128] weights; the bias is b (j); the repeated zero is 0. -/
theorem dense64_apply (x : FVec Ideal S16384x128 .f32) (W M : FVec Ideal S64x128 .f32) (b : FVec Ideal S64 .f32)
    (i : Fin 16384) (j : Fin 64) :
    dense64 (F := Ideal) x W M b (ix2 i j)
      = Cert.Mlp.layer (fun i q => x (ix2 i q)) (fun a q => W (ix2 a q)) (fun a q => M (ix2 a q)) (fun a => b (ix1 a)) i j := by
  -- the transposed masked weights at (q, j) are the masked weights at (j, q)
  have hT : ∀ q : Fin 128, transpose S128x64 [1, 0] (mulf W M) transposes_S64x128_S128x64_1_0 (ix2 q j)
      = W (ix2 j q) * M (ix2 j q) := by
    intro q
    refine (transpose_apply [1, 0] (mulf W M) transposes_S64x128_S128x64_1_0 (ix2 q j) (ix2 j q) ?_).trans ?_
    · intro a
      match a with
      | ⟨0, _⟩ => rfl
      | ⟨1, _⟩ => rfl
    · rfl
  -- the product's entry: its dimension numbers are those of the plain M × K by K × N product
  have hD : Host.dotGeneral dot_S16384x128_S128x64_S16384x64_1_0_0_1_n_n none x
        (transpose S128x64 [1, 0] (mulf W M) transposes_S64x128_S128x64_1_0) (ix2 i j)
      = ∑ q : Fin 128, x (ix2 i q) * (W (ix2 j q) * M (ix2 j q)) := by
    refine (Cert.LibDotPlain.dotGeneral_plain 16384 128 64 none .single x _ i j).trans ?_
    exact Finset.sum_congr rfl fun q _ => by rw [hT q]
  -- the bias as a [1 × 64] row repeated down the 16384 rows
  have hB : broadcastInDim S16384x64 ![0, 1] bcast_S1x64_S16384x64_0_1 (broadcastInDim S1x64 ![1] bcast_S64_S1x64_1 b) (ix2 i j)
      = b (ix1 j) := by
    refine (StableHlo.Predicate.bcast_cols bcast_S64_S1x64_1 bcast_S1x64_S16384x64_0_1 b i j).trans ?_
    exact congrArg b (eq_ix1 _)
  unfold dense64
  rw [maximumf_apply, addf_apply, hD, hB, zero_at]
  rfl

/-! ## One layer as a whole array

Every index of a two-axis array is (its row, its column), so the entry formulas give the layers as functions of the
index. In this form one layer's output can be fed to the next as its input. -/

/-- A layer of 128 units as a function of the result index: the specification's layer at the index's row and at the
    unit named by the index's column. -/
theorem dense128_fun (x : FVec Ideal S16384x128 .f32) (W M : FVec Ideal S128x128 .f32) (b : FVec Ideal S128 .f32) :
    dense128 (F := Ideal) x W M b
      = fun e => Cert.Mlp.layer (fun i q => x (ix2 i q)) (fun a q => W (ix2 a q)) (fun a q => M (ix2 a q))
          (fun a => b (ix1 a)) (e 0) (e 1) :=
  funext fun e => (congrArg (dense128 (F := Ideal) x W M b) (eq_ix2 e)).trans (dense128_apply x W M b (e 0) (e 1))

/-- The layer of 64 units as a function of the result index: the specification's layer at the index's row and at the
    unit named by the index's column. -/
theorem dense64_fun (x : FVec Ideal S16384x128 .f32) (W M : FVec Ideal S64x128 .f32) (b : FVec Ideal S64 .f32) :
    dense64 (F := Ideal) x W M b
      = fun e => Cert.Mlp.layer (fun i q => x (ix2 i q)) (fun a q => W (ix2 a q)) (fun a q => M (ix2 a q))
          (fun a => b (ix1 a)) (e 0) (e 1) :=
  funext fun e => (congrArg (dense64 (F := Ideal) x W M b) (eq_ix2 e)).trans (dense64_apply x W M b (e 0) (e 1))

/-! ## The wide array drops out

Each layer's input is read from the columns that were written immediately before, so it is the array written. -/

/-- The first layer's input, read back from columns 0 … 127 right after the inputs were written there, is the inputs:
    the first layer's output is the layer applied to the argument array. -/
theorem hidden1_eq (a0 : FVec Ideal S16384x128 .f32) (a1 : FVec Ideal S128x128 .f32) (a2 : FVec Ideal S128 .f32)
    (a3 : FVec Ideal S128x128 .f32) : hidden1 (F := Ideal) a0 a1 a2 a3 = dense128 a0 a1 a3 a2 := by
  unfold hidden1 acts0
  rw [Take.read_write_in]

/-- The second layer's input, read back from columns 128 … 255 right after the first layer's output was written
    there, is the first layer's output. -/
theorem hidden2_eq (a0 : FVec Ideal S16384x128 .f32) (a1 : FVec Ideal S128x128 .f32) (a2 : FVec Ideal S128 .f32)
    (a3 : FVec Ideal S128x128 .f32) (a4 : FVec Ideal S128x128 .f32) (a5 : FVec Ideal S128 .f32) (a6 : FVec Ideal S128x128 .f32) :
    hidden2 (F := Ideal) a0 a1 a2 a3 a4 a5 a6 = dense128 (hidden1 a0 a1 a2 a3) a4 a6 a5 := by
  unfold hidden2 acts1
  rw [Take.read_write_h1]

/-- The third layer's input, read back from columns 256 … 383 right after the second layer's output was written
    there, is the second layer's output. -/
theorem last_eq (a0 : FVec Ideal S16384x128 .f32) (a1 : FVec Ideal S128x128 .f32) (a2 : FVec Ideal S128 .f32)
    (a3 : FVec Ideal S128x128 .f32) (a4 : FVec Ideal S128x128 .f32) (a5 : FVec Ideal S128 .f32) (a6 : FVec Ideal S128x128 .f32)
    (a7 : FVec Ideal S64x128 .f32) (a8 : FVec Ideal S64 .f32) (a9 : FVec Ideal S64x128 .f32) :
    last (F := Ideal) a0 a1 a2 a3 a4 a5 a6 a7 a8 a9 = dense64 (hidden2 a0 a1 a2 a3 a4 a5 a6) a7 a9 a8 := by
  unfold last acts2
  rw [Take.read_write_h2]

/-! ## The whole computation -/

/-- The reference's result is the specification's result array. The result is the third layer's output read back
    from columns 384 … 447 right after it was written there, so it is the third layer's output; each layer's input
    is the previous layer's output (the first one's is the argument); and each layer, as a function of the index, is
    the specification's layer. Composed, they are the specification's three layers in sequence at (row, column) of the
    index, which is how the specification's result array is defined. -/
theorem res_eq (a0 : FVec Ideal S16384x128 .f32) (a1 : FVec Ideal S128x128 .f32) (a2 : FVec Ideal S128 .f32)
    (a3 : FVec Ideal S128x128 .f32) (a4 : FVec Ideal S128x128 .f32) (a5 : FVec Ideal S128 .f32) (a6 : FVec Ideal S128x128 .f32)
    (a7 : FVec Ideal S64x128 .f32) (a8 : FVec Ideal S64 .f32) (a9 : FVec Ideal S64x128 .f32) :
    res (F := Ideal) a0 a1 a2 a3 a4 a5 a6 a7 a8 a9 = Cert.Mlp.out a0 a1 a2 a3 a4 a5 a6 a7 a8 a9 := by
  unfold res
  rw [Take.read_write_out, last_eq, hidden2_eq, hidden1_eq, dense128_fun a0, dense128_fun, dense64_fun]
  rfl

end Cert.ReferenceIdeal.Whole

end
-- ==== Proof.lean ====
/-
  Three masked linear layers with the rectifier, fused in one kernel, against the same layers computed through a
  shared activations array.

  THE KERNEL takes 16384 input rows of 128 numbers in two blocks of 8192 rows. For each block it multiplies every
  weight array by its mask entry by entry, contracts the rows of the block against the ROWS of the masked weights
  (so no transposed copy is ever made), adds the layer's bias along the rows and keeps the larger of the sum and zero;
  it does this three times (128, 128 and 64 units) and stores the 8192 × 64 block of results. Between the layers it
  narrows the numbers to a shorter float format; over the extended reals a change of format is the identity.

  THE REFERENCE keeps one 16384 × 448 array for the inputs and all units' activations. It writes the inputs to columns
  0 … 127 and reads them back, applies the first layer (masked weights transposed, a plain matrix product, bias, larger
  of the sum and zero), writes its output to columns 128 … 255 and reads it back, and so on; the third layer's output goes to
  columns 384 … 447, and those columns, read back, are the result. Every column number written or read is a position plus
  a constant, inside 0 … 447 and met once, so each read gives back exactly what was last written there and the
  fill value for an out-of-range column is never chosen.

  So both results are, at row i and unit j, the same nest of three sums of products with the biases added and the
  rectifier applied (`Cert.Mlp.out`): the kernel's by reading its block function at an entry and laying the two blocks
  side by side (`Cert.KernelIdeal.Whole.run`), the reference's by running its operations in order
  (`Cert.ReferenceIdeal.Run.run`) and reading the resulting term (`Cert.ReferenceIdeal.Whole.res_eq`). No law of the
  extended reals beyond the meaning of the operations is used, and the inputs' finiteness is not needed.
  The ideal pass rewrote nothing in the kernel, so that the idealized kernel is the kernel's sanctioned idealization
  asks nothing; the three programs terminate without fault and leave their arguments unchanged.
-/
import proofs.«173291_g58299886076360_cont_9to1_m_691_15_alg».proof.Defs
import proofs.«173291_g58299886076360_cont_9to1_m_691_15_alg».proof.Proof.Gen.Kernel
import proofs.«173291_g58299886076360_cont_9to1_m_691_15_alg».proof.Proof.Gen.Kernel.Skeleton
import proofs.«173291_g58299886076360_cont_9to1_m_691_15_alg».proof.Proof.Gen.Kernel.Launch
import proofs.«173291_g58299886076360_cont_9to1_m_691_15_alg».proof.Proof.Gen.Kernel.Points
import proofs.«173291_g58299886076360_cont_9to1_m_691_15_alg».proof.Proof.Gen.Kernel.Frame
import proofs.«173291_g58299886076360_cont_9to1_m_691_15_alg».proof.Proof.Gen.KernelIdeal
import proofs.«173291_g58299886076360_cont_9to1_m_691_15_alg».proof.Proof.Gen.KernelIdeal.Skeleton
import proofs.«173291_g58299886076360_cont_9to1_m_691_15_alg».proof.Proof.Gen.KernelIdeal.Launch
import proofs.«173291_g58299886076360_cont_9to1_m_691_15_alg».proof.Proof.Gen.KernelIdeal.Points
import proofs.«173291_g58299886076360_cont_9to1_m_691_15_alg».proof.Proof.Gen.KernelIdeal.Frame
import proofs.«173291_g58299886076360_cont_9to1_m_691_15_alg».proof.Proof.Gen.KernelIdeal.Value
import proofs.«173291_g58299886076360_cont_9to1_m_691_15_alg».proof.Proof.Gen.ReferenceIdeal
import proofs.«173291_g58299886076360_cont_9to1_m_691_15_alg».proof.Proof.Gen.Pre_finite_inputs
import proofs.«173291_g58299886076360_cont_9to1_m_691_15_alg».proof.Proof.Spec
import proofs.«173291_g58299886076360_cont_9to1_m_691_15_alg».proof.Proof.KernelValue
import proofs.«173291_g58299886076360_cont_9to1_m_691_15_alg».proof.Proof.RefRun
import proofs.«173291_g58299886076360_cont_9to1_m_691_15_alg».proof.Proof.RefValue
import Idealize.ShloMosaic.Adequacy
import Idealize.ShloMosaic.Init

noncomputable section

namespace Cert.Proof

open Idealize.ShloMosaic Idealize.SL.Sem

/-- The kernel as printed runs to the end without fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with what it says about the result dropped. -/
theorem frame_ri : Cert.frame_ReferenceIdeal := fun m ρ _ =>
  (θ_run Cert.ReferenceIdeal.defs _ _).mono (fun _ h c => (h c).2) (Cert.ReferenceIdeal.Run.run (F := Ideal) m ρ)

/-- From memories that agree on the ten arguments both programs end with the result array at the three layers'
    function of those arguments: the kernel's run names it so, and the reference's run ends at a term that is that
    function once every read of the activations array is replaced by what was written there. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Run.run (F := Ideal) m' ρ')
  rw [Cert.ReferenceIdeal.Whole.res_eq]
  obtain ⟨h0, h1, h2, h3, h4, h5, h6, h7, h8, h9⟩ := hagree c
  rw [h0, h1, h2, h3, h4, h5, h6, h7, h8, h9]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
